-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S16384x16384 : Shape := ⟨2, ![16384, 16384]⟩
abbrev S256x256 : Shape := ⟨2, ![256, 256]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S16384x256 .f32) (main_arg1 : FVec F S16384x16384 .f32) (main_arg2 : FVec F S256x256 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S16384x256 : Shape := ⟨2, ![16384, 256]⟩
abbrev S16384x16384 : Shape := ⟨2, ![16384, 16384]⟩
abbrev S256x256 : Shape := ⟨2, ![256, 256]⟩
abbrev S2048x256 : Shape := ⟨2, ![2048, 256]⟩
abbrev S2048x1024 : Shape := ⟨2, ![2048, 1024]⟩
abbrev S1024x256 : Shape := ⟨2, ![1024, 256]⟩

abbrev nBuf : Space → Nat
  | .hbm => 5
  | .vmem => 12
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x256, .f32⟩
  | .hbm, ⟨3, _⟩ => ⟨S16384x256, .f32⟩
  | .hbm, ⟨4, _⟩ => ⟨S16384x256, .f32⟩
  | .local _ .vmem, ⟨0, _⟩ => ⟨S2048x256, .f32⟩
  | .local _ .vmem, ⟨1, _⟩ => ⟨S2048x256, .f32⟩
  | .local _ .vmem, ⟨2, _⟩ => ⟨S256x256, .f32⟩
  | .local _ .vmem, ⟨3, _⟩ => ⟨S2048x256, .f32⟩
  | .local _ .vmem, ⟨4, _⟩ => ⟨S2048x256, .f32⟩
  | .local _ .vmem, ⟨5, _⟩ => ⟨S2048x1024, .f32⟩
  | .local _ .vmem, ⟨6, _⟩ => ⟨S2048x1024, .f32⟩
  | .local _ .vmem, ⟨7, _⟩ => ⟨S1024x256, .f32⟩
  | .local _ .vmem, ⟨8, _⟩ => ⟨S1024x256, .f32⟩
  | .local _ .vmem, ⟨9, _⟩ => ⟨S2048x256, .f32⟩
  | .local _ .vmem, ⟨10, _⟩ => ⟨S2048x256, .f32⟩
  | .local _ .vmem, ⟨11, _⟩ => ⟨S2048x256, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def k1_cond2 (i : grid1.Coords) : BitVec 1 :=
  let arg1 : BitVec 32 := BitVec.ofNat 32 (i 1).val
  let c15_i32 : BitVec 32 := 15#32
  let v14 : BitVec 1 := Scalar.cmpi .eq arg1 c15_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S2048x256_S2048x256 : S2048x256.ShapeCasts S2048x256
  inb_S2048x1024_S2048x1024_0_0 : ∀ a, (![0, 0] : Fin 2 → Nat) a + S2048x1024.size a ≤ S2048x1024.size a
  h_S2048x1024 : 0 < S2048x1024.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  dot_S2048x256_S256x256_S2048x256_1_0_0_1_n_n_wf : DotDims.WF S2048x256 S256x256 S2048x256 [1] [0] [0] [1] [] []
  dot_S2048x1024_S1024x256_S2048x256_1_0_0_1_n_n_wf : DotDims.WF S2048x1024 S1024x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S16384x256.size a
  hwx0_2 : ∀ i : grid0.Coords, EltTy.bits .f32 = 32 ∨ (Rect.block (s := S16384x256) S2048x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S16384x16384.size a
  hwx1_0 : ∀ i : grid1.Coords, EltTy.bits .f32 = 32 ∨ (Rect.block (s := S16384x16384) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x256.size a ≤ S16384x256.size a
  hwx1_1 : ∀ i : grid1.Coords, EltTy.bits .f32 = 32 ∨ (Rect.block (s := S16384x256) S1024x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S16384x256.size a
  hwx1_2 : ∀ i : grid1.Coords, EltTy.bits .f32 = 32 ∨ (Rect.block (s := S16384x256) S2048x256.size (cc1_transform_2 i) (hinb1_2 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x1024_S1024x256_S2048x256_1_0_0_1_n_n : DotDims S2048x1024 S1024x256 S2048x256 where
  lhsContracting := [1]
  rhsContracting := [0]
  lhsNonContracting := [0]
  rhsNonContracting := [1]
  lhsBatch := []
  rhsBatch := []
  wf := dot_S2048x1024_S1024x256_S2048x256_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S16384x256 : Shape := ⟨2, ![16384, 256]⟩
abbrev S16384x16384 : Shape := ⟨2, ![16384, 16384]⟩
abbrev S256x256 : Shape := ⟨2, ![256, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S16384x16384, .f32⟩
  | .hbm, ⟨2, _⟩ => ⟨S256x256, .f32⟩
  | .hbm, ⟨3, _⟩ => ⟨S16384x256, .f32⟩
  | .hbm, ⟨4, _⟩ => ⟨S16384x256, .f32⟩
  | .hbm, ⟨5, _⟩ => ⟨S_, .f32⟩
  | .hbm, ⟨6, _⟩ => ⟨S16384x256, .f32⟩
  | .hbm, ⟨7, _⟩ => ⟨S16384x256, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩

abbrev nD : Nat := 1
abbrev τ : Topo := Topo.v7x

variable {F : FTy → Type} [FloatOps F]

class Facts₀ : Prop where
  bcast_S_S16384x256 : S_.BroadcastsInDim S16384x256 (![] : Fin 0 → Fin S16384x256.rank)
  dot_S16384x256_S256x256_S16384x256_1_0_0_1_n_n_wf : DotDims.WF S16384x256 S256x256 S16384x256 [1] [0] [0] [1] [] []
  dot_S16384x16384_S16384x256_S16384x256_1_0_0_1_n_n_wf : DotDims.WF S16384x16384 S16384x256 S16384x256 [1] [0] [0] [1] [] []

variable [Facts₀]

def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x16384_S16384x256_S16384x256_1_0_0_1_n_n : DotDims S16384x16384 S16384x256 S16384x256 where
  lhsContracting := [1]
  rhsContracting := [0]
  lhsNonContracting := [0]
  rhsNonContracting := [1]
  lhsBatch := []
  rhsBatch := []
  wf := dot_S16384x16384_S16384x256_S16384x256_1_0_0_1_n_n_wf

class Facts : Prop extends Facts₀ where

variable [Facts]
-- ==== Proof.K.Region0.lean ====
/-
  The first launch of the program, the product X · W computed 2048 rows of X at a time, as one pipeline of three
  windows over a grid of 8 points: window 0 is the block of 2048 rows of X the point works on, window 1 is the whole
  of W (the same block at every point), window 2 the block of 2048 rows of the product the point writes back.

  Everything here is stated at a parameter V, the contents of the core's buffers when the launch is entered, and
  at any value type: what the body leaves in the output's buffer as a function of the two input blocks (one store of
  the whole block, its value the product of the two blocks accumulated into zero), the body's Hoare triple, the
  pipeline's proof data (after a point each input's buffer still holds its block, the output's buffer holds the
  product of the point's blocks) and the body obligation at every point.
-/
import proofs.«166424_j7602092114484_1_alg».proof.Proof.Gen.Kernel.Launch
import proofs.«166424_j7602092114484_1_alg».proof.Proof.Gen.Kernel.Skeleton
import proofs.«166424_j7602092114484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of the rows of X holds the point's block of rows at every point, for any proof data over V's arrays
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of W holds W at every point, fetched there or not (its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block of 2048 rows by 256 columns. -/
abbrev rX : Rect S2048x256 := Rect.unit (s := S2048x256) ![0, 0] S2048x256.size inb_S2048x256_S2048x256_0_0
/-- The whole of W. -/
abbrev rW : Rect S256x256 := Rect.unit (s := S256x256) ![0, 0] S256x256.size inb_S256x256_S256x256_0_0

/-! ## What the body leaves in the output's buffer -/

/-- The output buffer after the body: its one store of the whole block, whose value is the product of the block of
    rows of X with W accumulated into zero. -/
def out0_2 (x0 : Vec F S2048x256 .f32) (x1 : Vec F S256x256 .f32) : Vec F S2048x256 .f32 :=
  View.canon [⟨rX, k0_pay1 (View.ld x0 rX) (View.ld x1 rW)⟩]

/-- The one store covers the buffer. -/
theorem cover0_2 (p0 : Vec F S2048x256 .f32) (y : S2048x256.Idx) :
    ∃ pc ∈ ([⟨rX, p0⟩] : List (View.Piece (Elt F) S2048x256 .f32)), y ∈ pc.1.set :=
  View.cover_of_tiled [⟨rX, p0⟩] S2048x256.size (by rfl) y

/-! ## The body's triple -/

set_option maxHeartbeats 1000000 in
/-- The body on whole buffers, the inputs' at contents x0 and x1 and the output's at anything, runs to a state
    holding the inputs' as they were and the output's at out0_2 x0 x1. -/
theorem sound_kernel0 (c : Dev nD) (E : Set ℕ) (i : grid0.Coords) (arg1 : Memref sig .tc .vmem S2048x256 .f32) (harg1 : arg1.IsWhole)
    (arg2 : Memref sig .tc .vmem S256x256 .f32) (harg2 : arg2.IsWhole) (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first launch on core c: the arrays as the launch finds them; after the body at point t
    each input's buffer at its block and the output's at the product of the two blocks; nothing else kept between
    points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; what is kept between
    points and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.Region1Runs.lean ====
/-
  The second launch, relu (adjm · XW), as a pipeline of three windows over a grid of 8 × 16 points (row block i,
  then K-block k fastest): window 0 the 2048 × 1024 block (i, k) of adjm, window 1 the 1024 × 256 block k of XW,
  window 2 the 2048 × 256 block i of the result, written back only at k = 15. The body keeps a 2048 × 256
  accumulator in a scratch buffer across the points of one row block: at k = 0 it stores zero into it, at every
  point it adds the product of the two input blocks to it, and at k = 15 it stores max(accumulator, 0) into the
  output's buffer.

  Here: the two conditions (k = 0, k = 15) in closed form over the grid, where the output window is idle, the
  buffers the body is called with, and the body's Hoare triple in each of the three control cases the grid
  meets (A: k = 0; B: 0 < k < 15; C: k = 15), each as a subtype whose witness — the pieces stored into the scratch
  and into the output buffer — is found by running the body.
-/
import proofs.«166424_j7602092114484_1_alg».proof.Proof.Gen.Kernel.Launch
import proofs.«166424_j7602092114484_1_alg».proof.Proof.Gen.Kernel.Skeleton
import proofs.«166424_j7602092114484_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, over the grid -/

/-- The first conditional's condition: the K-block index is 0. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition: the K-block index is 15, the last. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last K-block the body stores nothing into the output's buffer, -/
theorem idleAt1_2 : ∀ t : Fin cfg1.N, ¬cond1_1 (grid1.coords t) → cfg1.idle 2 (grid1.coords t) = true := by decide +kernel
/-- and the pipeline does not write it back there. -/
theorem noFlush1_2 : ∀ t : Fin cfg1.N, ¬cond1_1 (grid1.coords t) → (cfg1.win 2).flush t = false := by decide +kernel
/-- At the last K-block the output window is live. -/
theorem liveAt1_2 : ∀ t : Fin cfg1.N, cond1_1 (grid1.coords t) → cfg1.idle 2 (grid1.coords t) = false := by decide +kernel

/-! ## The buffers the body is called with -/

/-- One buffer of the output window, through which its contents are stated. -/
abbrev VO1_2 : View sig .tc .vmem S2048x256 .f32 := (Memref.whole cc1_stg2_0 : Memref sig .tc .vmem S2048x256 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1 : Memref sig .tc .vmem S2048x256 .f32 := Memref.whole cc1_scratch0
abbrev VS1 : View sig .tc .vmem S2048x256 .f32 := scM1.view

/-- What the launch leaves the body besides its windows, with the accumulator as a buffer owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

/-! ## The body in each control case -/

set_option maxHeartbeats 1000000 in
/-- Case A (k = 0): the accumulator at anything on entry, the idle output buffer handed back untouched. -/
noncomputable def kernelRun1_A (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S1024x256 .f32) :
    Σ' (L2 : List (View.Piece (Elt F) S2048x256 .f32)), { LS : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__gcn_kernel i arg2 harg2 arg3 harg3 arg4 harg4 arg5 harg5) K } := by
  refine ⟨[], ?_, fun xi2 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Case B (0 < k < 15): the accumulator at what the point before left, the idle output buffer handed back untouched. -/
noncomputable def kernelRun1_B (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S1024x256 .f32) (xs : Vec F S2048x256 .f32) :
    Σ' (L2 : List (View.Piece (Elt F) S2048x256 .f32)), { LS : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__gcn_kernel i arg2 harg2 arg3 harg3 arg4 harg4 arg5 harg5) K } := by
  refine ⟨[], ?_, fun xi2 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Case C (k = 15): the accumulator at what the point before left, the output buffer at anything on entry. -/
noncomputable def kernelRun1_C (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S1024x256 .f32) (xs : Vec F S2048x256 .f32) :
    Σ' (L2 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__gcn_kernel i arg2 harg2 arg3 harg3 arg4 harg4 arg5 harg5) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.Kernel.Frame

end
-- ==== Proof.K.Region1.lean ====
/-
  The second launch's proof data, at a parameter V (the contents of the core's buffers when the launch is
  entered) and at any value type.

  What the accumulator and the output's buffer hold after each point is defined by recursion on the point: at a
  point with k = 0 the accumulator is what case A's stores leave (it does not depend on what was there), at any
  other point what case B's or C's stores leave over the accumulator of the point before; the output's buffer is
  stored only at k = 15 (case C) and is idle elsewhere. The invariant kept between points is the launch's rest
  with the accumulator owned at exactly those contents, so that the body's triple in each case applies at every
  point; the pipeline's proof data name each input's buffer at its block and the output's at that recursion.
-/
import proofs.«166424_j7602092114484_1_alg».proof.Proof.K.Region1Runs

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of the adjacency block holds the point's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The buffer of the block of rows of X · W holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Where the output's buffer is idle nothing consults its contents: a placeholder. -/
def idleOut : Vec F S2048x256 .f32 := VO1_2.read (Elt F) VO1_2.junk

/-- Case A's stores into the accumulator cover it. -/
theorem scover1_A (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S1024x256 .f32) (y : S2048x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x256.size (by sl_kernel_rfl) y

/-- What case A leaves in the accumulator. -/
def sout1_A (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S1024x256 .f32) : Vec F S2048x256 .f32 :=
  VS1.read (Elt F) (VS1.writes (Elt F) VS1.junk (kernelRun1_A c i arg2 harg2 arg3 harg3 arg4 harg4 arg5 harg5 hc0 hc1 x0 x1).2.1)

/-- Case B's store into the accumulator covers it. -/
theorem scover1_B (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S1024x256 .f32) (xs : Vec F S2048x256 .f32) (y : S2048x256.Idx) :
    ∃ pc ∈ (kernelRun1_B c i arg2 harg2 arg3 harg3 arg4 harg4 arg5 harg5 hc0 hc1 x0 x1 xs).2.1, y ∈ pc.1.set :=
  View.cover_of_tiledL (kernelRun1_B c i arg2 harg2 arg3 harg3 arg4 harg4 arg5 harg5 hc0 hc1 x0 x1 xs).2.1 S2048x256.size (by sl_kernel_rfl) y

/-- What case B leaves in the accumulator, over what the point before left. -/
def sout1_B (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S1024x256 .f32) (xs : Vec F S2048x256 .f32) : Vec F S2048x256 .f32 :=
  VS1.read (Elt F) (VS1.writes (Elt F) VS1.junk (kernelRun1_B c i arg2 harg2 arg3 harg3 arg4 harg4 arg5 harg5 hc0 hc1 x0 x1 xs).2.1)

/-- Case C's store into the output's buffer covers it. -/
theorem cover1_C_2 (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S1024x256 .f32) (xs : Vec F S2048x256 .f32) (y : S2048x256.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S2048x256.size (by sl_kernel_rfl) y

/-- What case C leaves in the output's buffer. -/
def out1_C_2 (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S1024x256 .f32) (xs : Vec F S2048x256 .f32) : Vec F S2048x256 .f32 :=
  VO1_2.read (Elt F) (VO1_2.writes (Elt F) VO1_2.junk (kernelRun1_C c i arg2 harg2 arg3 harg3 arg4 harg4 arg5 harg5 hc0 hc1 x0 x1 xs).1)

/-- Case C's store into the accumulator covers it. -/
theorem scover1_C (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S1024x256 .f32) (xs : Vec F S2048x256 .f32) (y : S2048x256.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S2048x256.size (by sl_kernel_rfl) y

/-- What case C leaves in the accumulator. -/
def sout1_C (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S1024x256 .f32) (xs : Vec F S2048x256 .f32) : Vec F S2048x256 .f32 :=
  VS1.read (Elt F) (VS1.writes (Elt F) VS1.junk (kernelRun1_C c i arg2 harg2 arg3 harg3 arg4 harg4 arg5 harg5 hc0 hc1 x0 x1 xs).2.1)

/-! ## What the output's buffer and the accumulator hold after each point -/

/-- The pair (output's buffer, accumulator) after the body at position n: the case the closed forms select at n, run
    at the point's buffers and input blocks, over the accumulator of position n - 1 when the case reads it. -/
def outsAt1 (c : Dev nD) : (n : ℕ) → n < cfg1.N → Vec F S2048x256 .f32 × Vec F S2048x256 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point with k = 0: case A's contents. -/
theorem outsAt1_A (c : Dev nD) (t : Fin cfg1.N) (h0 : t.val % 16 = 0) (h1 : ¬t.val % 16 = 15) :
    outsAt1 V c t.val t.isLt = (idleOut, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point with 0 < k < 15: case B's contents, over what the point before left. -/
theorem outsAt1_B (c : Dev nD) (t : Fin cfg1.N) (h0 : ¬t.val % 16 = 0) (h1 : ¬t.val % 16 = 15) :
    outsAt1 V c t.val t.isLt = (idleOut, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 15: case C's contents, over what the point before left. -/
theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant kept between points -/

/-- Before position n: at the first point what the launch hands over (the accumulator at anything); afterwards the
    same rest with the accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c (n - 1) (by omega)).2)) ∗ (∃ r, prngReg c r)) := by
  cases n with
  | zero => exact absurd rfl hz
  | succ n => rfl

/-! ## The pipeline's proof data -/

/-- The proof data of the second launch on core c: the arrays as the launch finds them; after the body at point t
    each input's buffer at its block and the output's at the recursion's first component; the invariant carrying the
    accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms say which case the point is in; the invariant hands the body the
    accumulator at what the point before left (at anything at the very first point) and takes it back at this
    point's contents; the idle output buffer goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · have h1 : ¬t.val % 16 = 15 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨Ha, Hb, Hc, Hd, He, HS⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Ha, Hb, Hc, Hd, He, HS⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := by intro h; rw [h] at h0; exact h0 rfl
    by_cases h1 : t.val % 16 = 15
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS1_castSucc V c t, PhiS1_pos V c _ _ hz]
      iintro ⟨⟨⟨Ha, Hb, Hc, Hd, He, HS⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨Ha, Hb, Hc, Hd, He, HS⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the body is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's rest back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.Kernel.Frame

end
-- ==== Proof.K.Run.lean ====
/-
  The run of the whole program: @main is the first launch followed by the second, with no host operation before,
  between or after them.

  The contents of the core's unscoped buffers are followed through the two launches: at launch they are the
  memory's; after the first launch its three arrays hold what its pipeline leaves (the two inputs as entered, the
  product's array the blocks written back) and every other buffer is as entered; likewise after the second. Each
  launch is entered from "every unscoped buffer at the contents before it" and left at the contents after it; its
  arrays are split out of the unscoped buffers at entry and put back at exit; the random-number register rides along;
  nothing is owed to any other core. The conclusion names every unscoped buffer's final contents, from which both
  the frame (the three arguments end as launched) and the value of the result are read.
-/
import proofs.«166424_j7602092114484_1_alg».proof.Proof.K.Region0
import proofs.«166424_j7602092114484_1_alg».proof.Proof.K.Region1

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- The same read at the TensorCore's references: what the first launch's proof data take. -/
abbrev Va : (c : Dev nD) → (b : Ref sig .tc) → Buf (Elt F) ((c : Thread nD τ).loc b) := fun c b => W0 m ρ c b
/-- After the first launch: its arrays at what its pipeline leaves, every other buffer as entered. -/
def W1 (c : Dev nD) : Valuation τ sig (Elt F) :=
  Pipeline.withArrays spec0 c (W0 m ρ c) fun w => (dat0 (Va m ρ) c).arrAt w cfg0.N
theorem W1_arr (c : Dev nD) (w : Fin cfg0.W) :
    W1 m ρ c (Proc.devRef .tc (Pipeline.arrRef spec0 w)) = (dat0 (Va m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: what the second launch's proof data take. -/
abbrev Vb : (c : Dev nD) → (b : Ref sig .tc) → Buf (Elt F) ((c : Thread nD τ).loc b) := fun c b => W1 m ρ c b
theorem hF0 (c : Dev nD) (w : Fin cfg0.W) : (dat0 (Va m ρ) c).arrAt w cfg0.N = Vb m ρ c (Pipeline.arrRef spec0 w) :=
  (W1_arr m ρ c w).symm
theorem hrest0 (c : Dev nD) : ∀ b, b ∉ Finset.univ.image (Pipeline.arrRef spec0) → Vb m ρ c b = Va m ρ c b :=
  fun b hb => W1_of_ne m ρ c b fun w e => hb (Finset.mem_image.mpr ⟨w, Finset.mem_univ _, e⟩)

/-- After the second launch: its arrays at what its pipeline leaves, every other buffer as entered. -/
def W2 (c : Dev nD) : Valuation τ sig (Elt F) :=
  Pipeline.withArrays spec1 c (W1 m ρ c) fun w => (dat1 (Vb m ρ) c).arrAt w cfg1.N
theorem W2_arr (c : Dev nD) (w : Fin cfg1.W) :
    W2 m ρ c (Proc.devRef .tc (Pipeline.arrRef spec1 w)) = (dat1 (Vb m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev Vc : (c : Dev nD) → (b : Ref sig .tc) → Buf (Elt F) ((c : Thread nD τ).loc b) := fun c b => W2 m ρ c b
theorem hF1 (c : Dev nD) (w : Fin cfg1.W) : (dat1 (Vb m ρ) c).arrAt w cfg1.N = Vc m ρ c (Pipeline.arrRef spec1 w) :=
  (W2_arr m ρ c w).symm
theorem hrest1 (c : Dev nD) : ∀ b, b ∉ Finset.univ.image (Pipeline.arrRef spec1) → Vc m ρ c b = Vb m ρ c b :=
  fun b hb => W2_of_ne m ρ c b fun w e => hb (Finset.mem_image.mpr ⟨w, Finset.mem_univ _, e⟩)

/-! ## The arguments end as launched, and what the second launch reads -/

/-- X is the first launch's first input: an input's array is kept; the second launch does not touch it. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (Va m ρ) c).arrAt_in 0 rfl _).trans (A_eq0 (Va m ρ) c 0))
    _ = m ((c : Thread nD τ).loc main_arg0) := rfl

/-- W is the first launch's second input. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (Va m ρ) c).arrAt_in 1 rfl _).trans (A_eq0 (Va m ρ) c 1))
    _ = m ((c : Thread nD τ).loc main_arg2) := rfl

/-- The adjacency matrix reaches the second launch as launched (the first launch does not touch it), -/
theorem W1_main_arg1 (c : Dev nD) : W1 m ρ c (Proc.devRef .tc main_arg1) = m ((c : Thread nD τ).loc main_arg1) :=
  (W1_of_ne m ρ c main_arg1 (by decide)).trans rfl

/-- and is the second launch's first input: kept. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (Vb m ρ) c).arrAt_in 0 rfl _).trans (A_eq1 (Vb m ρ) c 0))
    _ = m ((c : Thread nD τ).loc main_arg1) := W1_main_arg1 m ρ c

/-- The product's array, as the second launch finds it, is what the first launch's pipeline left. -/
theorem W1_main_v0 (c : Dev nD) : W1 m ρ c (Proc.devRef .tc main_v0) = (dat0 (Va m ρ) c).arrAt 2 cfg0.N :=
  W1_arr m ρ c 2

/-- The result's array at the end is what the second launch's pipeline left. -/
theorem W2_main_v1 (c : Dev nD) : W2 m ρ c (Proc.devRef .tc main_v1) = (dat1 (Vb m ρ) c).arrAt 2 cfg1.N :=
  W2_arr m ρ c 2

/-! ## The proof data family and the thread state -/

/-- No launch has a prefetched table. -/
abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vb m ρ) c
abbrev 𝒱₀ : Variants := Variants.none
abbrev L : GSem nD τ sig → Finset Unit := fun _ => ∅
abbrev lv : GSem nD τ sig → Unit → ℕ := fun _ _ => 0
/-- What rides beside the buffers: the core's random-number register at some state and its dues, none. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W2 m ρ c) ∗ ∃ r, prngReg c r)

/-- After the second launch's last point its invariant gives back the launch's rest and the register. -/
theorem hout1' (c : Dev nD) : (pdats m ρ 1 c).Φ (Fin.last _) ⊢ (iprop(Pipeline.scopedRest spec1 c ∗ ∃ r, prngReg c r) : sProp 𝕄) := by
  have h := hout1 (Vb m ρ) c
  unfold Pipeline.ΦA at h
  exact h

/-! ## The launches as segments -/

set_option backward.isDefEq.respectTransparency.types false in
/-- Launch 0 over the thread state: its arrays split out of the unscoped buffers at entry and put back at the exit
    contents; the random-number register into the launch's rest and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: its arrays split out of the unscoped buffers at entry and put back at the exit
    contents; the random-number register into the launch's rest and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (Vb m ρ) c 0 (Nat.zero_le _) from rfl, PhiS1_zero (Vb m ρ) c 0 _ rfl]; unfold Pipeline.ΦA
    iintro ⟨Hp, -, Hr⟩
    isplitl [Hr]; · iexact Hr
    iexact Hp
  hout c := by
    rw [Pipeline.ownSems0_none]
    iintro H
    ihave H' := (hout1' m ρ c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    unscoped buffer of every core ends at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

/-- The run with the result named: the result's array ends at what the second launch's pipeline leaves when entered
    from the adjacency matrix as launched and the product's array as the first launch's pipeline left it. -/
theorem run_value : θ_run defs (onTc (τ := τ) (main (F := F))) ⟨m, fun _ => 0, ρ⟩ (fun r => ∀ c : Dev nD,
      r.2.mem ((c.tc : Thread nD τ).loc main_v1) = (dat1 (Vb m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

end Cert.Kernel.Frame

end
-- ==== Proof.KI.Region0.lean ====
/-
  The first launch of the program, the product X · W computed 2048 rows of X at a time, as one pipeline of three
  windows over a grid of 8 points: window 0 is the block of 2048 rows of X the point works on, window 1 is the whole
  of W (the same block at every point), window 2 the block of 2048 rows of the product the point writes back.

  Everything here is stated at a parameter V, the contents of the core's buffers when the launch is entered, and
  at any value type: what the body leaves in the output's buffer as a function of the two input blocks (one store of
  the whole block, its value the product of the two blocks accumulated into zero), the body's Hoare triple, the
  pipeline's proof data (after a point each input's buffer still holds its block, the output's buffer holds the
  product of the point's blocks) and the body obligation at every point.
-/
import proofs.«166424_j7602092114484_1_alg».proof.Proof.Gen.KernelIdeal.Launch
import proofs.«166424_j7602092114484_1_alg».proof.Proof.Gen.KernelIdeal.Skeleton
import proofs.«166424_j7602092114484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The buffer of the rows of X holds the point's block of rows at every point, for any proof data over V's arrays
    whose body leaves that block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The buffer of W holds W at every point, fetched there or not (its block index never moves). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole block of 2048 rows by 256 columns. -/
abbrev rX : Rect S2048x256 := Rect.unit (s := S2048x256) ![0, 0] S2048x256.size inb_S2048x256_S2048x256_0_0
/-- The whole of W. -/
abbrev rW : Rect S256x256 := Rect.unit (s := S256x256) ![0, 0] S256x256.size inb_S256x256_S256x256_0_0

/-! ## What the body leaves in the output's buffer -/

/-- The output buffer after the body: its one store of the whole block, whose value is the product of the block of
    rows of X with W accumulated into zero. -/
def out0_2 (x0 : Vec F S2048x256 .f32) (x1 : Vec F S256x256 .f32) : Vec F S2048x256 .f32 :=
  View.canon [⟨rX, k0_pay1 (View.ld x0 rX) (View.ld x1 rW)⟩]

/-- The one store covers the buffer. -/
theorem cover0_2 (p0 : Vec F S2048x256 .f32) (y : S2048x256.Idx) :
    ∃ pc ∈ ([⟨rX, p0⟩] : List (View.Piece (Elt F) S2048x256 .f32)), y ∈ pc.1.set :=
  View.cover_of_tiled [⟨rX, p0⟩] S2048x256.size (by rfl) y

/-! ## The body's triple -/

set_option maxHeartbeats 1000000 in
/-- The body on whole buffers, the inputs' at contents x0 and x1 and the output's at anything, runs to a state
    holding the inputs' as they were and the output's at out0_2 x0 x1. -/
theorem sound_kernel0 (c : Dev nD) (E : Set ℕ) (i : grid0.Coords) (arg1 : Memref sig .tc .vmem S2048x256 .f32) (harg1 : arg1.IsWhole)
    (arg2 : Memref sig .tc .vmem S256x256 .f32) (harg2 : arg2.IsWhole) (arg3 : Memref sig .tc .vmem S2048x256 .f32) (harg3 : arg3.IsWhole)
    (x0 : Vec F S2048x256 .f32) (x1 : Vec F S256x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__xw_kernel i arg1 harg1 arg2 harg2 arg3 harg3) K := by
  simp only [cc0__xw_kernel_eq_skeleton]; unfold cc0__xw_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first launch on core c: the arrays as the launch finds them; after the body at point t
    each input's buffer at its block and the output's at the product of the two blocks; nothing else kept between
    points; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; what is kept between
    points and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.Region1Runs.lean ====
/-
  The second launch, relu (adjm · XW), as a pipeline of three windows over a grid of 8 × 16 points (row block i,
  then K-block k fastest): window 0 the 2048 × 1024 block (i, k) of adjm, window 1 the 1024 × 256 block k of XW,
  window 2 the 2048 × 256 block i of the result, written back only at k = 15. The body keeps a 2048 × 256
  accumulator in a scratch buffer across the points of one row block: at k = 0 it stores zero into it, at every
  point it adds the product of the two input blocks to it, and at k = 15 it stores max(accumulator, 0) into the
  output's buffer.

  Here: the two conditions (k = 0, k = 15) in closed form over the grid, where the output window is idle, the
  buffers the body is called with, and the body's Hoare triple in each of the three control cases the grid
  meets (A: k = 0; B: 0 < k < 15; C: k = 15), each as a subtype whose witness — the pieces stored into the scratch
  and into the output buffer — is found by running the body.
-/
import proofs.«166424_j7602092114484_1_alg».proof.Proof.Gen.KernelIdeal.Launch
import proofs.«166424_j7602092114484_1_alg».proof.Proof.Gen.KernelIdeal.Skeleton
import proofs.«166424_j7602092114484_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions, over the grid -/

/-- The first conditional's condition: the K-block index is 0. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The second conditional's condition: the K-block index is 15, the last. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last K-block the body stores nothing into the output's buffer, -/
theorem idleAt1_2 : ∀ t : Fin cfg1.N, ¬cond1_1 (grid1.coords t) → cfg1.idle 2 (grid1.coords t) = true := by decide +kernel
/-- and the pipeline does not write it back there. -/
theorem noFlush1_2 : ∀ t : Fin cfg1.N, ¬cond1_1 (grid1.coords t) → (cfg1.win 2).flush t = false := by decide +kernel
/-- At the last K-block the output window is live. -/
theorem liveAt1_2 : ∀ t : Fin cfg1.N, cond1_1 (grid1.coords t) → cfg1.idle 2 (grid1.coords t) = false := by decide +kernel

/-! ## The buffers the body is called with -/

/-- One buffer of the output window, through which its contents are stated. -/
abbrev VO1_2 : View sig .tc .vmem S2048x256 .f32 := (Memref.whole cc1_stg2_0 : Memref sig .tc .vmem S2048x256 .f32).view
abbrev ms1_0 (t : Fin cfg1.N) : Memref sig .tc .vmem S2048x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .f32 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1 : Memref sig .tc .vmem S2048x256 .f32 := Memref.whole cc1_scratch0
abbrev VS1 : View sig .tc .vmem S2048x256 .f32 := scM1.view

/-- What the launch leaves the body besides its windows, with the accumulator as a buffer owned at some contents. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d)) ∗ (∃ r, prngReg c r)) := by
  unfold Pipeline.ΦA; rw [scopedRest1_eq]; simp only [scM1, owns_whole]; try rfl

/-! ## The body in each control case -/

set_option maxHeartbeats 1000000 in
/-- Case A (k = 0): the accumulator at anything on entry, the idle output buffer handed back untouched. -/
noncomputable def kernelRun1_A (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S1024x256 .f32) :
    Σ' (L2 : List (View.Piece (Elt F) S2048x256 .f32)), { LS : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__gcn_kernel i arg2 harg2 arg3 harg3 arg4 harg4 arg5 harg5) K } := by
  refine ⟨[], ?_, fun xi2 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Case B (0 < k < 15): the accumulator at what the point before left, the idle output buffer handed back untouched. -/
noncomputable def kernelRun1_B (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S1024x256 .f32) (xs : Vec F S2048x256 .f32) :
    Σ' (L2 : List (View.Piece (Elt F) S2048x256 .f32)), { LS : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS)) -∗ K ⟨⟩))
          ⊢ wp frame (wpE (defs₀ (F := F)) Variants.none c none) E (cc1__gcn_kernel i arg2 harg2 arg3 harg3 arg4 harg4 arg5 harg5) K } := by
  refine ⟨[], ?_, fun xi2 E K => ?run⟩
  case run =>
    simp only [cc1__gcn_kernel_eq_skeleton]; unfold cc1__gcn_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS

set_option maxHeartbeats 1000000 in
/-- Case C (k = 15): the accumulator at what the point before left, the output buffer at anything on entry. -/
noncomputable def kernelRun1_C (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S1024x256 .f32) (xs : Vec F S2048x256 .f32) :
    Σ' (L2 : List (View.Piece (Elt F) S2048x256 .f32)), { LS : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS)) -∗ K ⟨⟩))
          ⊢ wp frame (wpE (defs₀ (F := F)) Variants.none c none) E (cc1__gcn_kernel i arg2 harg2 arg3 harg3 arg4 harg4 arg5 harg5) K } := by
  refine ⟨?_, ?_, fun E K => ?run⟩
  case run =>
    simp only [cc1__gcn_kernel_eq_skeleton]; unfold cc1__gcn_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

end Cert.KernelIdeal.Frame

end
-- ==== Proof.KI.Region1.lean ====
/-
  The second launch's proof data, at a parameter V (the contents of the core's buffers when the launch is
  entered) and at any value type.

  What the accumulator and the output's buffer hold after each point is defined by recursion on the point: at a
  point with k = 0 the accumulator is what case A's stores leave (it does not depend on what was there), at any
  other point what case B's or C's stores leave over the accumulator of the point before; the output's buffer is
  stored only at k = 15 (case C) and is idle elsewhere. The invariant kept between points is the launch's rest
  with the accumulator owned at exactly those contents, so that the body's triple in each case applies at every
  point; the pipeline's proof data name each input's buffer at its block and the output's at that recursion.
-/
import proofs.«166424_j7602092114484_1_alg».proof.Proof.KI.Region1Runs

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window w's block at point t, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The buffer of the adjacency block holds the point's block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The buffer of the block of rows of X · W holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- Where the output's buffer is idle nothing consults its contents: a placeholder. -/
def idleOut : Vec F S2048x256 .f32 := VO1_2.read (Elt F) VO1_2.junk

/-- Case A's stores into the accumulator cover it. -/
theorem scover1_A (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S1024x256 .f32) (y : S2048x256.Idx) :
    ∃ pc ∈ (kernelRun1_A c i arg2 harg2 arg3 harg3 arg4 harg4 arg5 harg5 hc0 hc1 x0 x1).2.1, y ∈ pc.1.set :=
  View.cover_of_tiledL (kernelRun1_A c i arg2 harg2 arg3 harg3 arg4 harg4 arg5 harg5 hc0 hc1 x0 x1).2.1 S2048x256.size (by sl_kernel_rfl) y

/-- What case A leaves in the accumulator. -/
def sout1_A (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i)
    (x0 : Vec F S2048x1024 .f32) (x1 : Vec F S1024x256 .f32) : Vec F S2048x256 .f32 :=
  VS1.read (Elt F) (VS1.writes (Elt F) VS1.junk (kernelRun1_A c i arg2 harg2 arg3 harg3 arg4 harg4 arg5 harg5 hc0 hc1 x0 x1).2.1)

/-- Case B's store into the accumulator covers it. -/
theorem scover1_B (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S1024x256 .f32) (xs : Vec F S2048x256 .f32) (y : S2048x256.Idx) :
    ∃ pc ∈ (kernelRun1_B c i arg2 harg2 arg3 harg3 arg4 harg4 arg5 harg5 hc0 hc1 x0 x1 xs).2.1, y ∈ pc.1.set :=
  View.cover_of_tiledL (kernelRun1_B c i arg2 harg2 arg3 harg3 arg4 harg4 arg5 harg5 hc0 hc1 x0 x1 xs).2.1 S2048x256.size (by sl_kernel_rfl) y

/-- What case B leaves in the accumulator, over what the point before left. -/
def sout1_B (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i)
    (x0 : Vec F S2048x1024 .f32) (x1 : Vec F S1024x256 .f32) (xs : Vec F S2048x256 .f32) : Vec F S2048x256 .f32 :=
  VS1.read (Elt F) (VS1.writes (Elt F) VS1.junk (kernelRun1_B c i arg2 harg2 arg3 harg3 arg4 harg4 arg5 harg5 hc0 hc1 x0 x1 xs).2.1)

/-- Case C's store into the output's buffer covers it. -/
theorem cover1_C_2 (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S1024x256 .f32) (xs : Vec F S2048x256 .f32) (y : S2048x256.Idx) :
    ∃ pc ∈ (kernelRun1_C c i arg2 harg2 arg3 harg3 arg4 harg4 arg5 harg5 hc0 hc1 x0 x1 xs).1, y ∈ pc.1.set :=
  View.cover_of_tiledL (kernelRun1_C c i arg2 harg2 arg3 harg3 arg4 harg4 arg5 harg5 hc0 hc1 x0 x1 xs).1 S2048x256.size (by sl_kernel_rfl) y

/-- What case C leaves in the output's buffer. -/
def out1_C_2 (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S1024x256 .f32) (xs : Vec F S2048x256 .f32) : Vec F S2048x256 .f32 :=
  VO1_2.read (Elt F) (VO1_2.writes (Elt F) VO1_2.junk (kernelRun1_C c i arg2 harg2 arg3 harg3 arg4 harg4 arg5 harg5 hc0 hc1 x0 x1 xs).1)

/-- Case C's store into the accumulator covers it. -/
theorem scover1_C (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S1024x256 .f32) (xs : Vec F S2048x256 .f32) (y : S2048x256.Idx) :
    ∃ pc ∈ (kernelRun1_C c i arg2 harg2 arg3 harg3 arg4 harg4 arg5 harg5 hc0 hc1 x0 x1 xs).2.1, y ∈ pc.1.set :=
  View.cover_of_tiledL (kernelRun1_C c i arg2 harg2 arg3 harg3 arg4 harg4 arg5 harg5 hc0 hc1 x0 x1 xs).2.1 S2048x256.size (by sl_kernel_rfl) y

/-- What case C leaves in the accumulator. -/
def sout1_C (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i)
    (x0 : Vec F S2048x1024 .f32) (x1 : Vec F S1024x256 .f32) (xs : Vec F S2048x256 .f32) : Vec F S2048x256 .f32 :=
  VS1.read (Elt F) (VS1.writes (Elt F) VS1.junk (kernelRun1_C c i arg2 harg2 arg3 harg3 arg4 harg4 arg5 harg5 hc0 hc1 x0 x1 xs).2.1)

/-! ## What the output's buffer and the accumulator hold after each point -/

/-- The pair (output's buffer, accumulator) after the body at position n: the case the closed forms select at n, run
    at the point's buffers and input blocks, over the accumulator of position n - 1 when the case reads it. -/
def outsAt1 (c : Dev nD) : (n : ℕ) → n < cfg1.N → Vec F S2048x256 .f32 × Vec F S2048x256 .f32
  | 0, hn => (idleOut, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (idleOut, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (idleOut, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- At a point with k = 0: case A's contents. -/
theorem outsAt1_A (c : Dev nD) (t : Fin cfg1.N) (h0 : t.val % 16 = 0) (h1 : ¬t.val % 16 = 15) :
    outsAt1 V c t.val t.isLt = (idleOut, sout1_A c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- At a point with 0 < k < 15: case B's contents, over what the point before left. -/
theorem outsAt1_B (c : Dev nD) (t : Fin cfg1.N) (h0 : ¬t.val % 16 = 0) (h1 : ¬t.val % 16 = 15) :
    outsAt1 V c t.val t.isLt = (idleOut, sout1_B c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point with k = 15: case C's contents, over what the point before left. -/
theorem outsAt1_C (c : Dev nD) (t : Fin cfg1.N) (h0 : ¬t.val % 16 = 0) (h1 : t.val % 16 = 15) :
    outsAt1 V c t.val t.isLt = (out1_C_2 c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant kept between points -/

/-- Before position n: at the first point what the launch hands over (the accumulator at anything); afterwards the
    same rest with the accumulator at what the point before left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare ((outsAt1 V c (n - 1) (by omega)).2)) ∗ (∃ r, prngReg c r)) := by
  cases n with
  | zero => exact absurd rfl hz
  | succ n => rfl

/-! ## The pipeline's proof data -/

/-- The proof data of the second launch on core c: the arrays as the launch finds them; after the body at point t
    each input's buffer at its block and the output's at the recursion's first component; the invariant carrying the
    accumulator; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

/-- What the body is called with at point t, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the closed forms say which case the point is in; the invariant hands the body the
    accumulator at what the point before left (at anything at the very first point) and takes it back at this
    point's contents; the idle output buffer goes back untouched. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 128 := lt_of_lt_of_eq t.isLt (show cfg1.N = 128 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · have h1 : ¬t.val % 16 = 15 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    by_cases hz : t.val = 0
    · rw [PhiS1_castSucc V c t, PhiS1_zero V c _ _ hz, PhiA1_eq]
      iintro ⟨⟨⟨Ha, Hb, Hc, Hd, He, HS⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
    · rw [PhiS1_castSucc V c t, PhiS1_pos V c _ _ hz]
      iintro ⟨⟨⟨Ha, Hb, Hc, Hd, He, HS⟩, Hg⟩, Ho, ⟨%d0, H0⟩, ⟨%d1, H1⟩, ⟨%d2, H2⟩⟩
      iapply ((kernelRun1_A c (grid1.coords t) _ _ _ _ _ _ _ _ ((hcond1_0 t).mpr h0) (fun h => h1 ((hcond1_1 t).mp h)) (iblk1 V c 0 t) (iblk1 V c 1 t)).2.2 _ Set.univ _)
      isplitl [H0]; · iexact H0
      isplitl [H1]; · iexact H1
      isplitl [H2]; · iexact H2
      isplitl [HS]; · iexists _; iexact HS
      iintro ⟨H0, H1, H2, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (scover1_A c _ _ _ _ _ _ _ _ _ _ _ _ _)
        iexact Hg
      isplitl [Ho]; · iexact Ho
      isplitl [H0]; · iexact H0
      isplitl [H1]; · iexact H1
      iexists _; iexact H2
  · have hz : t.val ≠ 0 := by intro h; rw [h] at h0; exact h0 rfl
    by_cases h1 : t.val % 16 = 15
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C_2 sout1_C; (try dsimp only)
      rw [PhiS1_castSucc V c t, PhiS1_pos V c _ _ hz]
      iintro ⟨⟨⟨Ha, Hb, Hc, Hd, He, HS⟩, Hg⟩, Ho, ⟨%d0, H0⟩, ⟨%d1, H1⟩, ⟨%d2, H2⟩⟩
      iapply ((kernelRun1_C c (grid1.coords t) _ _ _ _ _ _ _ _ (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS]; · iexact HS
      iintro ⟨H0, H1, ⟨%e2, H2⟩, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (scover1_C c _ _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C_2 c _ _ _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨Ha, Hb, Hc, Hd, He, HS⟩, Hg⟩, Ho, ⟨%d0, H0⟩, ⟨%d1, H1⟩, ⟨%d2, H2⟩⟩
      iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
      isplitl [H0]; · iexact H0
      isplitl [H1]; · iexact H1
      isplitl [H2]; · iexact H2
      isplitl [HS]; · iexact HS
      iintro ⟨H0, H1, H2, ⟨%es, HS⟩⟩
      isplitl [Ha Hb Hc Hd He HS Hg]
      · isplitr [Hg]
        · isplitl [Ha]; · iexact Ha
          isplitl [Hb]; · iexact Hb
          isplitl [Hc]; · iexact Hc
          isplitl [Hd]; · iexact Hd
          isplitl [He]; · iexact He
          unfold owns; iexists _; isplitr
          swap; · iexact HS
          ipureintro; exact View.read_writes_of_cover _ _ _ _ _ (scover1_B c _ _ _ _ _ _ _ _ _ _ _ _ _ _)
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the body is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's rest back: the accumulator's contents are forgotten. -/
theorem hout1 (c : Dev nD) : (dat1 V c).Φ (Fin.last cfg1.N) ⊢ Pipeline.ΦA spec1 c := by
  rw [show (dat1 V c).Φ (Fin.last cfg1.N) = PhiS1 V c (Fin.last cfg1.N).val (Nat.le_of_lt_succ (Fin.last cfg1.N).isLt) from rfl,
    PhiS1_pos V c _ _ (by rw [Fin.val_last]; have : cfg1.N = 128 := N_1; omega), PhiA1_eq]
  iintro ⟨⟨Ha, Hb, Hc, Hd, He, HS⟩, Hg⟩
  isplitr [Hg]
  · isplitl [Ha]; · iexact Ha
    isplitl [Hb]; · iexact Hb
    isplitl [Hc]; · iexact Hc
    isplitl [Hd]; · iexact Hd
    isplitl [He]; · iexact He
    iexists _; iexact HS
  iexact Hg

end Cert.KernelIdeal.Frame

end
-- ==== Proof.KI.Run.lean ====
/-
  The run of the whole program: @main is the first launch followed by the second, with no host operation before,
  between or after them.

  The contents of the core's unscoped buffers are followed through the two launches: at launch they are the
  memory's; after the first launch its three arrays hold what its pipeline leaves (the two inputs as entered, the
  product's array the blocks written back) and every other buffer is as entered; likewise after the second. Each
  launch is entered from "every unscoped buffer at the contents before it" and left at the contents after it; its
  arrays are split out of the unscoped buffers at entry and put back at exit; the random-number register rides along;
  nothing is owed to any other core. The conclusion names every unscoped buffer's final contents, from which both
  the frame (the three arguments end as launched) and the value of the result are read.
-/
import proofs.«166424_j7602092114484_1_alg».proof.Proof.KI.Region0
import proofs.«166424_j7602092114484_1_alg».proof.Proof.KI.Region1

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core c's buffers at launch. -/
abbrev W0 : Dev nD → Valuation τ sig (Elt F) := fun c b => (s₀ m ρ).mem ((c : Dev nD), b)
/-- The same read at the TensorCore's references: what the first launch's proof data take. -/
abbrev Va : (c : Dev nD) → (b : Ref sig .tc) → Buf (Elt F) ((c : Thread nD τ).loc b) := fun c b => W0 m ρ c b
/-- After the first launch: its arrays at what its pipeline leaves, every other buffer as entered. -/
def W1 (c : Dev nD) : Valuation τ sig (Elt F) :=
  Pipeline.withArrays spec0 c (W0 m ρ c) fun w => (dat0 (Va m ρ) c).arrAt w cfg0.N
theorem W1_arr (c : Dev nD) (w : Fin cfg0.W) :
    W1 m ρ c (Proc.devRef .tc (Pipeline.arrRef spec0 w)) = (dat0 (Va m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references: what the second launch's proof data take. -/
abbrev Vb : (c : Dev nD) → (b : Ref sig .tc) → Buf (Elt F) ((c : Thread nD τ).loc b) := fun c b => W1 m ρ c b
theorem hF0 (c : Dev nD) (w : Fin cfg0.W) : (dat0 (Va m ρ) c).arrAt w cfg0.N = Vb m ρ c (Pipeline.arrRef spec0 w) :=
  (W1_arr m ρ c w).symm
theorem hrest0 (c : Dev nD) : ∀ b, b ∉ Finset.univ.image (Pipeline.arrRef spec0) → Vb m ρ c b = Va m ρ c b :=
  fun b hb => W1_of_ne m ρ c b fun w e => hb (Finset.mem_image.mpr ⟨w, Finset.mem_univ _, e⟩)

/-- After the second launch: its arrays at what its pipeline leaves, every other buffer as entered. -/
def W2 (c : Dev nD) : Valuation τ sig (Elt F) :=
  Pipeline.withArrays spec1 c (W1 m ρ c) fun w => (dat1 (Vb m ρ) c).arrAt w cfg1.N
theorem W2_arr (c : Dev nD) (w : Fin cfg1.W) :
    W2 m ρ c (Proc.devRef .tc (Pipeline.arrRef spec1 w)) = (dat1 (Vb m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev Vc : (c : Dev nD) → (b : Ref sig .tc) → Buf (Elt F) ((c : Thread nD τ).loc b) := fun c b => W2 m ρ c b
theorem hF1 (c : Dev nD) (w : Fin cfg1.W) : (dat1 (Vb m ρ) c).arrAt w cfg1.N = Vc m ρ c (Pipeline.arrRef spec1 w) :=
  (W2_arr m ρ c w).symm
theorem hrest1 (c : Dev nD) : ∀ b, b ∉ Finset.univ.image (Pipeline.arrRef spec1) → Vc m ρ c b = Vb m ρ c b :=
  fun b hb => W2_of_ne m ρ c b fun w e => hb (Finset.mem_image.mpr ⟨w, Finset.mem_univ _, e⟩)

/-! ## The arguments end as launched, and what the second launch reads -/

/-- X is the first launch's first input: an input's array is kept; the second launch does not touch it. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := W2_of_ne m ρ c main_arg0 (by decide)
    _ = W0 m ρ c (Proc.devRef .tc main_arg0) := (W1_arr m ρ c 0).trans (((dat0 (Va m ρ) c).arrAt_in 0 rfl _).trans (A_eq0 (Va m ρ) c 0))
    _ = m ((c : Thread nD τ).loc main_arg0) := rfl

/-- W is the first launch's second input. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (Va m ρ) c).arrAt_in 1 rfl _).trans (A_eq0 (Va m ρ) c 1))
    _ = m ((c : Thread nD τ).loc main_arg2) := rfl

/-- The adjacency matrix reaches the second launch as launched (the first launch does not touch it), -/
theorem W1_main_arg1 (c : Dev nD) : W1 m ρ c (Proc.devRef .tc main_arg1) = m ((c : Thread nD τ).loc main_arg1) :=
  (W1_of_ne m ρ c main_arg1 (by decide)).trans rfl

/-- and is the second launch's first input: kept. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := (W2_arr m ρ c 0).trans (((dat1 (Vb m ρ) c).arrAt_in 0 rfl _).trans (A_eq1 (Vb m ρ) c 0))
    _ = m ((c : Thread nD τ).loc main_arg1) := W1_main_arg1 m ρ c

/-- The product's array, as the second launch finds it, is what the first launch's pipeline left. -/
theorem W1_main_v0 (c : Dev nD) : W1 m ρ c (Proc.devRef .tc main_v0) = (dat0 (Va m ρ) c).arrAt 2 cfg0.N :=
  W1_arr m ρ c 2

/-- The result's array at the end is what the second launch's pipeline left. -/
theorem W2_main_v1 (c : Dev nD) : W2 m ρ c (Proc.devRef .tc main_v1) = (dat1 (Vb m ρ) c).arrAt 2 cfg1.N :=
  W2_arr m ρ c 2

/-! ## The proof data family and the thread state -/

/-- No launch has a prefetched table. -/
abbrev adm : (p : Fin 2) → (pcfgs (F := F) p).Adm := fun p => (cfgs p).toPCfg_adm
/-- Each launch's proof data at its entry contents. -/
def pdats : (p : Fin 2) → (c : Dev nD) → Dat τ (Elt F) Unit ℕ (UR sig nD τ) ℕ (Pipeline.pin (pcfgs (F := F)) adm p) c
  | ⟨0, _⟩ => fun c => dat0 (Va m ρ) c
  | ⟨1, _⟩ => fun c => dat1 (Vb m ρ) c
abbrev 𝒱₀ : Variants := Variants.none
abbrev L : GSem nD τ sig → Finset Unit := fun _ => ∅
abbrev lv : GSem nD τ sig → Unit → ℕ := fun _ _ => 0
/-- What rides beside the buffers: the core's random-number register at some state and its dues, none. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues. -/
abbrev Tₙ (c : Dev nD) : sProp 𝕄 := iprop(StableHlo.held (c : Thread nD τ) (Pipeline.ucRefs τ sig) (W2 m ρ c) ∗ ∃ r, prngReg c r)

/-- After the second launch's last point its invariant gives back the launch's rest and the register. -/
theorem hout1' (c : Dev nD) : (pdats m ρ 1 c).Φ (Fin.last _) ⊢ (iprop(Pipeline.scopedRest spec1 c ∗ ∃ r, prngReg c r) : sProp 𝕄) := by
  have h := hout1 (Vb m ρ) c
  unfold Pipeline.ΦA at h
  exact h

/-! ## The launches as segments -/

set_option backward.isDefEq.respectTransparency.types false in
/-- Launch 0 over the thread state: its arrays split out of the unscoped buffers at entry and put back at the exit
    contents; the random-number register into the launch's rest and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Va m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Va m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Va m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Va m ρ c) (Vb m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state: its arrays split out of the unscoped buffers at entry and put back at the exit
    contents; the random-number register into the launch's rest and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vb m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (Vb m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Vb m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = PhiS1 (Vb m ρ) c 0 (Nat.zero_le _) from rfl, PhiS1_zero (Vb m ρ) c 0 _ rfl]; unfold Pipeline.ΦA
    iintro ⟨Hp, -, Hr⟩
    isplitl [Hr]; · iexact Hr
    iexact Hp
  hout c := by
    rw [Pipeline.ownSems0_none]
    iintro H
    ihave H' := (hout1' m ρ c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Vb m ρ c) (Vc m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]

theorem main_run (c : Dev nD) : main (F := F) c = Pipeline.Seg.run (segs m ρ) := (main_chain c).trans (by chain_rfl)

set_option backward.isDefEq.respectTransparency.types false in
/-- From any memory with zero counters every weakly fair execution of @main terminates, nothing faulting, and every
    unscoped buffer of every core ends at the contents followed above. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

/-- The run with the result named: the result's array ends at what the second launch's pipeline leaves when entered
    from the adjacency matrix as launched and the product's array as the first launch's pipeline left it. -/
theorem run_value : θ_run defs (onTc (τ := τ) (main (F := F))) ⟨m, fun _ => 0, ρ⟩ (fun r => ∀ c : Dev nD,
      r.2.mem ((c.tc : Thread nD τ).loc main_v1) = (dat1 (Vb m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c)⟩) (run_all m ρ)

end Cert.KernelIdeal.Frame

end
-- ==== Proof.LibSumBlocks.lean ====
/-
  Two facts about finite sums used to read an accumulator that is filled block by block.

  * A sum over nb·sz entries is the sum over the nb blocks of the sums over each block's sz entries (entry sz·j + r is
    entry r of block j).
  * An accumulator that is reset at every P-th step and otherwise adds to what the step before left — o t = S t when
    P divides t, o t = o (t - 1) + S t otherwise — holds after step t the sum of S over the steps since the last reset.
-/
import Mathlib.Data.EReal.Basic
import Mathlib.Algebra.BigOperators.Fin
import Mathlib.Algebra.BigOperators.Intervals

namespace Cert.SumLib

open scoped BigOperators

/-- A sum over nb·sz entries, block by block: entry sz·j + r is entry r of block j. -/
theorem sum_blocks {M : Type} [AddCommMonoid M] (nb sz : ℕ) (f : Fin (nb * sz) → M)
    (hb : ∀ (j : Fin nb) (r : Fin sz), sz * j.val + r.val < nb * sz) :
    ∑ n : Fin (nb * sz), f n = ∑ j : Fin nb, ∑ r : Fin sz, f ⟨sz * j.val + r.val, hb j r⟩ := by
  rw [← (finProdFinEquiv (m := nb) (n := sz)).sum_comp f, Fintype.sum_prod_type]
  refine Finset.sum_congr rfl fun j _ => Finset.sum_congr rfl fun r _ => congrArg f (Fin.ext ?_)
  simp [finProdFinEquiv, Nat.add_comm]

/-- The sum over 8192 rows as the sum over 16 blocks of 512 rows. -/
theorem sum_16x512 {M : Type} [AddCommMonoid M] (f : Fin 8192 → M) :
    ∑ n : Fin 8192, f n = ∑ j : Fin 16, ∑ r : Fin 512, f ⟨512 * j.val + r.val, by have := j.isLt; have := r.isLt; omega⟩ :=
  sum_blocks 16 512 f fun j r => by have := j.isLt; have := r.isLt; omega

/-- The sum over 8192 rows as the sum over 8 blocks of 1024 rows. -/
theorem sum_8x1024 {M : Type} [AddCommMonoid M] (f : Fin 8192 → M) :
    ∑ n : Fin 8192, f n = ∑ j : Fin 8, ∑ r : Fin 1024, f ⟨1024 * j.val + r.val, by have := j.isLt; have := r.isLt; omega⟩ :=
  sum_blocks 8 1024 f fun j r => by have := j.isLt; have := r.isLt; omega

/-- One step back inside a block: when P does not divide t, the step before has the remainder one less. -/
theorem pred_mod (P : ℕ) (hP : 0 < P) (t : ℕ) (hz : t % P ≠ 0) : (t - 1) % P = t % P - 1 := by
  have hdm := Nat.div_add_mod t P
  have hlt := Nat.mod_lt t hP
  have e : t - 1 = (t % P - 1) + P * (t / P) := by omega
  rw [e, Nat.add_mul_mod_self_left, Nat.mod_eq_of_lt (by omega)]

/-- The closed form below a bound, by induction on the step: a reset step holds its own term; any other step adds
    its term to the sum the step before holds, which has the same block start. -/
theorem acc_closed_aux {M : Type} [AddCommMonoid M] (P N : ℕ) (hP : 0 < P) (o S : ℕ → M)
    (h0 : ∀ t, t < N → t % P = 0 → o t = S t) (h1 : ∀ t, t < N → t % P ≠ 0 → o t = o (t - 1) + S t) (t : ℕ) (ht : t < N) :
    o t = ∑ j ∈ Finset.range (t % P + 1), S (t - t % P + j) := by
  induction t using Nat.strong_induction_on with
  | _ t ih =>
    by_cases hz : t % P = 0
    · rw [h0 t ht hz, hz]; simp
    · have hle : t % P ≤ t := Nat.mod_le t P
      have hm := pred_mod P hP t hz
      have e1 : t % P - 1 + 1 = t % P := by omega
      have e2 : t - 1 - (t % P - 1) = t - t % P := by omega
      have e3 : t - t % P + t % P = t := Nat.sub_add_cancel hle
      rw [h1 t ht hz, ih (t - 1) (by omega) (by omega), hm, Finset.sum_range_succ _ (t % P), e1, e2, e3]

/-- The accumulator after step t: the sum of the steps' terms since the last reset (steps t - t % P … t). -/
theorem acc_closed {M : Type} [AddCommMonoid M] (P : ℕ) (hP : 0 < P) (o S : ℕ → M) (h0 : ∀ t, t % P = 0 → o t = S t)
    (h1 : ∀ t, t % P ≠ 0 → o t = o (t - 1) + S t) (t : ℕ) :
    o t = ∑ j ∈ Finset.range (t % P + 1), S (t - t % P + j) :=
  acc_closed_aux P (t + 1) hP o S (fun t _ => h0 t) (fun t _ => h1 t) t (Nat.lt_succ_self t)

/-- The same for a run of steps bounded by N (the accumulator is only defined below N). -/
theorem acc_closed_lt {M : Type} [AddCommMonoid M] (P N : ℕ) (hP : 0 < P) (o S : ℕ → M) (h0 : ∀ t, t < N → t % P = 0 → o t = S t)
    (h1 : ∀ t, t < N → t % P ≠ 0 → o t = o (t - 1) + S t) (t : ℕ) (ht : t < N) :
    o t = ∑ j ∈ Finset.range (t % P + 1), S (t - t % P + j) :=
  acc_closed_aux P N hP o S h0 h1 t ht

end Cert.SumLib
-- ==== Proof.Spec.lean ====
/-
  What both programs compute, as one function of the three argument arrays over the extended reals.

  XW (r, v) = ∑ q < 256, X (r, q) · W (q, v)                         (16384 × 256)
  Y  (r, v) = max (∑ q < 16384, A (r, q) · XW (q, v)) 0              (16384 × 256)

  The sums are sums in the additive commutative monoid of the extended reals, so the second one may be taken
  16 blocks of 1024 terms at a time, in any order of accumulation, from zero: no finiteness is needed.
-/
import Idealize.ShloMosaic.PureOps.Ideal
import Idealize.ShloMosaic.Lib.ValueIdx
import proofs.«166424_j7602092114484_1_alg».proof.Proof.LibSumBlocks

noncomputable section

open scoped BigOperators

namespace Cert.Spec

open Idealize.ShloMosaic Idealize.ShloMosaic.ValueIdx

/-- The shape of X, of X · W and of the result. -/
abbrev SX : Shape := ⟨2, ![16384, 256]⟩
/-- The shape of the adjacency matrix. -/
abbrev SA : Shape := ⟨2, ![16384, 16384]⟩
/-- The shape of W. -/
abbrev SW : Shape := ⟨2, ![256, 256]⟩

/-- X · W, entry by entry. -/
def XW (x : SX.Idx → EReal) (w : SW.Idx → EReal) : SX.Idx → EReal :=
  fun j => ∑ q : Fin 256, x (ix2 (j 0) q) * w (ix2 q (j 1))

/-- A · P before the maximum, entry by entry. -/
def AP (a : SA.Idx → EReal) (p : SX.Idx → EReal) : SX.Idx → EReal :=
  fun j => ∑ q : Fin 16384, a (ix2 (j 0) q) * p (ix2 q (j 1))

/-- relu (A · (X · W)), entry by entry. -/
def Y (x : SX.Idx → EReal) (a : SA.Idx → EReal) (w : SW.Idx → EReal) : SX.Idx → EReal :=
  fun j => max (AP a (XW x w) j) 0

/-- The sum over the 16384 columns of A taken 16 blocks of 1024 columns at a time. -/
theorem sum_16x1024 {M : Type} [AddCommMonoid M] (f : Fin 16384 → M) :
    ∑ n : Fin 16384, f n = ∑ j : Fin 16, ∑ r : Fin 1024, f ⟨1024 * j.val + r.val, by have := j.isLt; have := r.isLt; omega⟩ :=
  Cert.SumLib.sum_blocks 16 1024 f fun j r => by have := j.isLt; have := r.isLt; omega

end Cert.Spec

end
-- ==== Proof.LibDotRowsCols.lean ====
/-
  A product of an array of rows with an array of columns, read at one entry.

  For dimension numbers that contract the left operand's axis 1 with the right operand's axis 0, keep the left
  operand's axis 0 and the right operand's axis 1, and batch nothing — the plain product  l · w  of an [n × K] array
  with a [K × c] array — the operand indices at result entry (r, v) and contraction position q are (r, q) and (q, v).
  So both the accumulate-into-zero `tpu.matmul` and the host's `dot_general` are, at the ideal values, the entry's
  plain sum  ∑ q < K, l (r, q) · w (q, v)  over the shared axis: the same extended real whatever the number of rows of
  the left operand. This identifies a product computed a block of the left operand's rows at a time with the whole
  product.
-/
import Idealize.ShloMosaic.PureOps.Ideal.Laws
import Idealize.ShloMosaic.Lib.ValueIdx

noncomputable section

open scoped BigOperators

namespace Cert.Lib.DotRowsCols

open Idealize.ShloMosaic Idealize.ShloMosaic.ValueIdx

variable {n K c : Nat}

/-- Dimension numbers of a rows-by-columns product [n, K] × [K, c] → [n, c]: contract left axis 1 with right axis 0,
    result rows from the left operand's rows, result columns from the right operand's columns, no batch axis. -/
structure RowsCols (d : DotDims ⟨2, ![n, K]⟩ ⟨2, ![K, c]⟩ ⟨2, ![n, c]⟩) : Prop where
  lc : d.lhsContracting = [1]
  rc : d.rhsContracting = [0]
  ln : d.lhsNonContracting = [0]
  rn : d.rhsNonContracting = [1]
  lb : d.lhsBatch = []
  rb : d.rhsBatch = []

variable {d : DotDims ⟨2, ![n, K]⟩ ⟨2, ![K, c]⟩ ⟨2, ![n, c]⟩}

/-- Reading a multi-index at two equal positions gives the same coordinate. -/
private theorem val_congr {s : Shape} (j : s.Idx) (p q : Nat) (hp : p < s.rank) (hq : q < s.rank) (h : p = q) :
    (j ⟨p, hp⟩).val = (j ⟨q, hq⟩).val := by subst h; rfl

/-- One axis is contracted. -/
theorem RowsCols.rank_contr (h : RowsCols d) : d.contr.rank = 1 := by rw [d.rank_contr, h.lc]; rfl

/-- The contracted axis has the shared length K. -/
theorem RowsCols.size_contr (h : RowsCols d) : d.contr.size ⟨0, by rw [h.rank_contr]; exact Nat.one_pos⟩ = K := by
  have := d.size_contr 0 (by rw [h.lc]; exact Nat.one_pos)
  rw [this]; simp only [h.lc]; rfl

/-- The left operand's row is the result's row. -/
theorem RowsCols.lhs_row (h : RowsCols d) (j : (⟨2, ![n, c]⟩ : Shape).Idx) (k : d.contr.Idx) :
    (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact val_congr j _ _ _ _ (by simp [h.lb, h.ln])

/-- The left operand's column is the contraction position. -/
theorem RowsCols.lhs_col (h : RowsCols d) (j : (⟨2, ![n, c]⟩ : Shape).Idx) (k : d.contr.Idx) :
    (d.lhsIdx j k 1).val = (k ⟨0, by rw [h.rank_contr]; exact Nat.one_pos⟩).val :=
  d.lhsIdx_val_of_single h.lc j k

/-- The right operand's row is the contraction position. -/
theorem RowsCols.rhs_row (h : RowsCols d) (j : (⟨2, ![n, c]⟩ : Shape).Idx) (k : d.contr.Idx) :
    (d.rhsIdx j k 0).val = (k ⟨0, by rw [h.rank_contr]; exact Nat.one_pos⟩).val :=
  d.rhsIdx_val_of_single h.rc j k

/-- The right operand's column is the result's column: its axis 1 is kept, and comes after the left operand's one
    kept axis among the result's axes. -/
theorem RowsCols.rhs_col (h : RowsCols d) (j : (⟨2, ![n, c]⟩ : Shape).Idx) (k : d.contr.Idx) :
    (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact val_congr j _ _ _ _ (by simp [h.lb, h.ln, h.rn])

/-- The contraction's sum, re-indexed by the shared axis: ∑ q < K, l (r, q) · w (q, v). -/
theorem RowsCols.sum_eq (h : RowsCols d) (l : (⟨2, ![n, K]⟩ : Shape).Idx → EReal) (w : (⟨2, ![K, c]⟩ : Shape).Idx → EReal)
    (j : (⟨2, ![n, c]⟩ : Shape).Idx) :
    ∑ k : d.contr.Idx, l (d.lhsIdx j k) * w (d.rhsIdx j k) = ∑ q : Fin K, l (ix2 (j 0) q) * w (ix2 q (j 1)) := by
  -- the one contracted axis, of length K, is indexed by Fin K
  rw [← Equiv.sum_comp (contrEquiv1 d K h.rank_contr h.size_contr).symm]
  refine Finset.sum_congr rfl fun q _ => ?_
  have hk := contrEquiv1_symm_val d K h.rank_contr h.size_contr q
  -- left operand at (result row, q)
  have e1 : d.lhsIdx j ((contrEquiv1 d K h.rank_contr h.size_contr).symm q) = ix2 (j 0) q := by
    funext a
    match a with
    | ⟨0, _⟩ => exact Fin.ext (h.lhs_row j _)
    | ⟨1, _⟩ => exact Fin.ext ((h.lhs_col j _).trans hk)
  -- right operand at (q, result column)
  have e2 : d.rhsIdx j ((contrEquiv1 d K h.rank_contr h.size_contr).symm q) = ix2 q (j 1) := by
    funext a
    match a with
    | ⟨0, _⟩ => exact Fin.ext ((h.rhs_row j _).trans hk)
    | ⟨1, _⟩ => exact Fin.ext (h.rhs_col j _)
  exact congrArg₂ (· * ·) (congrArg l e1) (congrArg w e2)

/-- `tpu.matmul` into the zero accumulator, at an entry, at the ideal values (operands of any float formats). -/
theorem RowsCols.matmul_zero_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    matmul (F := Ideal) d prec l w (constant ⟨2, ![n, c]⟩ .f32 0x00000000#32) j
      = ∑ q : Fin K, l (ix2 (j 0) q) * w (ix2 q (j 1)) :=
  (Ideal.matmul_constant_zero_apply d prec l w j).trans (h.sum_eq l w j)

/-- The host's `dot_general`, at an entry, at the ideal values. -/
theorem RowsCols.dotGeneral_apply {φ₁ φ₂ : FTy} (h : RowsCols d) (prec : Option ContractPrecision)
    (l : FVec Ideal ⟨2, ![n, K]⟩ φ₁) (w : FVec Ideal ⟨2, ![K, c]⟩ φ₂) (j : (⟨2, ![n, c]⟩ : Shape).Idx) :
    Host.dotGeneral (F := Ideal) d prec l w j = ∑ q : Fin K, l (ix2 (j 0) q) * w (ix2 q (j 1)) :=
  (Ideal.dotGeneral_apply d prec .single l w j).trans (h.sum_eq l w j)

end Cert.Lib.DotRowsCols

end
-- ==== Proof.Value0.lean ====
/-
  The first launch's output array, as a function of its two input arrays, over the extended reals.

  The launch computes X · W a block of 2048 rows of X at a time, over 8 grid points. At point t the body loads the
  block of rows 2048 t … 2048 t + 2047 of X and the whole of W, and stores their product accumulated into zero; at the
  ideal values the narrowing of the operands is the identity and the product's entry (p, q) is the plain sum
  ∑ k < 256, x (p, k) · w (k, q). Row p of the block is row 2048 t + p of X, so what point t writes back is block t
  of the one function XW X W of the whole arrays; the 8 blocks tile the 16384 rows (row r lies in block r / 2048), so the
  array ends holding XW X W.
-/
import proofs.«166424_j7602092114484_1_alg».proof.Proof.KI.Region0
import proofs.«166424_j7602092114484_1_alg».proof.Proof.Spec
import proofs.«166424_j7602092114484_1_alg».proof.Proof.LibDotRowsCols
import Idealize.ShloMosaic.Lib.Pipeline.Value
import Idealize.ShloMosaic.Lib.ValueIdx
import Idealize.ShloMosaic.PureOps.Ideal.Laws

noncomputable section

open scoped BigOperators

namespace Cert.KernelIdeal.Value0

open Cert.KernelIdeal Cert.KernelIdeal.Gen Cert.KernelIdeal.Frame Idealize.ShloMosaic Idealize.ShloMosaic.TcCoe Idealize.SL.Sem
open Idealize.ShloMosaic.ValueIdx
open Idealize.ShloMosaic.Pipeline (Dat)
open Cert.Lib.DotRowsCols

/-- The zero offsets of a whole-block rectangle. -/
theorem zero_offsets : (![0, 0] : Fin 2 → Nat) = fun _ => 0 := funext fun a => by fin_cases a <;> rfl

/-- The printed dimension numbers of the first product are those of a plain rows-by-columns product. -/
theorem rowsCols_XW : RowsCols dot_S2048x256_S256x256_S2048x256_1_0_0_1_n_n := ⟨rfl, rfl, rfl, rfl, rfl, rfl⟩

/-- The body's value at an entry: the block of rows of X times W, entry (p, q). -/
theorem product_apply (x0 : Vec Ideal S2048x256 .f32) (x1 : Vec Ideal S256x256 .f32) (p : Fin 2048) (q : Fin 256) :
    k0_pay1 (F := Ideal) x0 x1 (ix2 p q) = ∑ k : Fin 256, x0 (ix2 p k) * x1 (ix2 k q) := by
  unfold k0_pay1
  exact rowsCols_XW.matmul_zero_apply none _ _ (ix2 p q)

/-- If the left block's row y 0 is row i 0 of X and the right block's column y 1 is column i 1 of W, the body's value at y
    is entry i of X · W. -/
theorem product_eq_XW (X : Spec.SX.Idx → EReal) (W : Spec.SW.Idx → EReal)
    (x0 : Vec Ideal S2048x256 .f32) (x1 : Vec Ideal S256x256 .f32) (y : S2048x256.Idx) (i : Spec.SX.Idx)
    (h0 : ∀ k : Fin 256, x0 (ix2 (y 0) k) = X (ix2 (i 0) k))
    (h1 : ∀ k : Fin 256, x1 (ix2 k (y 1)) = W (ix2 k (i 1))) :
    k0_pay1 (F := Ideal) x0 x1 y = Spec.XW X W i := by
  obtain ⟨p, q, rfl⟩ : ∃ (p : Fin 2048) (q : Fin 256), y = ix2 p q := ⟨y 0, y 1, eq_ix2 y⟩
  rw [product_apply]
  unfold Spec.XW
  exact Finset.sum_congr rfl fun k _ => congrArg₂ (· * ·) (h0 k) (h1 k)

/-- Where each window's block sits at grid point t: rows of X and of the product at block (t, 0), W at block (0, 0). -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- The block of rows of X at point t, entry (p, k), is X at row 2048 t + p, column k. -/
theorem rows_block_apply (c : Dev nD) (t : Fin cfg0.N) (p : Fin 2048) (k : Fin 256) (i : Spec.SX.Idx)
    (hi0 : (i 0).val = t.val * 2048 + p.val) (hi1 : (i 1).val = k.val) :
    (iblk0 V c 0 t : Vec Ideal S2048x256 .f32) (ix2 p k) = (V c main_arg0 : Spec.SX.Idx → EReal) i := by
  obtain ⟨e0, e1, -⟩ := block_indices t
  unfold iblk0
  rw [View.read_apply]
  show V c main_arg0 _ = V c main_arg0 _
  congr 1
  funext a
  apply Fin.ext
  match a with
  | ⟨0, _⟩ => show win0_0.index t (0 : Fin 2) * 2048 + 1 * p.val = (i 0).val; rw [e0, hi0]; omega
  | ⟨1, _⟩ => show win0_0.index t (1 : Fin 2) * 256 + 1 * k.val = (i 1).val; rw [e1, hi1]; omega

/-- The block of W at any point is W. -/
theorem W_block_apply (c : Dev nD) (t : Fin cfg0.N) (k q : Fin 256) (i : Spec.SW.Idx)
    (hi0 : (i 0).val = k.val) (hi1 : (i 1).val = q.val) :
    (iblk0 V c 1 t : Vec Ideal S256x256 .f32) (ix2 k q) = (V c main_arg2 : Spec.SW.Idx → EReal) i := by
  obtain ⟨-, -, e0, e1, -⟩ := block_indices t
  unfold iblk0
  rw [View.read_apply]
  show V c main_arg2 _ = V c main_arg2 _
  congr 1
  funext a
  apply Fin.ext
  match a with
  | ⟨0, _⟩ => show win0_1.index t (0 : Fin 2) * 256 + 1 * k.val = (i 0).val; rw [e0, hi0]; omega
  | ⟨1, _⟩ => show win0_1.index t (1 : Fin 2) * 256 + 1 * q.val = (i 1).val; rw [e1, hi1]; omega

theorem flushed_eq (c : Dev nD) (t : Fin cfg0.N) :
    (dat0 (F := Ideal) V c).flushed 2 t = ((cfg0.win 2).blk t).view.read (Elt Ideal) (Cert.Spec.XW (V c main_arg0) (V c main_arg2)) := by
  show (cfg0.win 2).cut (grid0.coords t) ((dat0 V c).after 2 t) = _
  rw [after0_2]
  unfold out0_2
  rw [View.canon_unit_zero zero_offsets]
  simp only [View.ld_unit_zero (S := S2048x256) zero_offsets, View.ld_unit_zero (S := S256x256) zero_offsets]
  funext j
  obtain ⟨-, -, -, -, e0, e1⟩ := block_indices t
  show k0_pay1 (F := Ideal) (iblk0 V c 0 t) (iblk0 V c 1 t) ((win0 2).xinj (grid0.coords t) j)
      = Spec.XW (V c main_arg0) (V c main_arg2) (((cfg0.win 2).blk t).view.emb j)
  have r0 : ((((cfg0.win 2).blk t).view.emb j) 0).val = win0_2.index t (0 : Fin 2) * 2048 + 1 * (j 0).val := rfl
  have r1 : ((((cfg0.win 2).blk t).view.emb j) 1).val = win0_2.index t (1 : Fin 2) * 256 + 1 * (j 1).val := rfl
  refine product_eq_XW (V c main_arg0) (V c main_arg2) _ _ _ _ (fun k => ?_) (fun k => ?_)
  · refine rows_block_apply V c t _ k _ ?_ rfl
    rw [r0, e0]; show _ = t.val * 2048 + (j 0).val; omega
  · refine W_block_apply V c t k _ _ rfl ?_
    rw [r1, e1]; show _ = (j 1).val; omega

/-- An index of the product's array is in point t's block iff on each axis it lies in the block's range. -/
theorem mem_block (t : Fin cfg0.N) (i : S16384x256.Idx) :
    i ∈ ((cfg0.win 2).blk t).view.set ↔ ∀ a : Fin 2, win0_2.index t a * S2048x256.size a ≤ (i a).val
      ∧ (i a).val < win0_2.index t a * S2048x256.size a + S2048x256.size a := by
  show i ∈ ((View.whole main_v0).slice (win0_2.rect t)).set ↔ _
  rw [View.set_slice_whole, Rect.mem_set_unit]
  exact Iff.rfl

/-- Every entry of the product's array is written back by some point: row r by point r / 2048. -/
theorem covered (i : S16384x256.Idx) :
    ∃ t : Fin cfg0.N, (cfg0.win 2).flush t = true ∧ i ∈ ((cfg0.win 2).blk t).view.set := by
  have hi0 : (i 0).val < 16384 := (i 0).isLt
  have hi1 : (i 1).val < 256 := (i 1).isLt
  have ht : (i 0).val / 2048 < cfg0.N := by show _ < grid0.N; rw [N_0]; omega
  obtain ⟨-, -, -, -, e0, e1⟩ := block_indices ⟨(i 0).val / 2048, ht⟩
  refine ⟨⟨(i 0).val / 2048, ht⟩, flush0_2 _, ?_⟩
  rw [mem_block]
  intro a
  match a with
  | ⟨0, _⟩ =>
    show win0_2.index ⟨(i 0).val / 2048, ht⟩ (0 : Fin 2) * 2048 ≤ (i 0).val
      ∧ (i 0).val < win0_2.index ⟨(i 0).val / 2048, ht⟩ (0 : Fin 2) * 2048 + 2048
    rw [e0]; show (i 0).val / 2048 * 2048 ≤ (i 0).val ∧ (i 0).val < (i 0).val / 2048 * 2048 + 2048; omega
  | ⟨1, _⟩ =>
    show win0_2.index ⟨(i 0).val / 2048, ht⟩ (1 : Fin 2) * 256 ≤ (i 1).val
      ∧ (i 1).val < win0_2.index ⟨(i 0).val / 2048, ht⟩ (1 : Fin 2) * 256 + 256
    rw [e1]; omega

/-- The array the first launch leaves in its output is X · W of its two input arrays. -/
theorem arr0 (c : Dev nD) :
    (dat0 (F := Ideal) V c).arrAt 2 cfg0.N = Cert.Spec.XW (V c main_arg0) (V c main_arg2) :=
  (dat0 (F := Ideal) V c).arrAt_eq_of_cover 2 (Cert.Spec.XW (V c main_arg0) (V c main_arg2))
    (fun t _ => flushed_eq V c t) covered

end Cert.KernelIdeal.Value0

end
-- ==== Proof.Pieces1.lean ====
/-
  What the second launch's three control cases leave in the accumulator and in the output's buffer, as the
  payloads of the body's stores, at any value type.

  Every store of the body writes a whole 2048 × 256 block through a rectangle at the origin, so what a case leaves
  in a buffer is the payload of its last store there; every load reads a whole block, the input blocks as handed to
  the body and the accumulator as the store before it left it. Case A (k = 0) stores the zero block, reads it back
  and stores its update by the product of the two input blocks; cases B and C store the update of the accumulator
  they are handed; case C then reads the updated accumulator back and stores its maximum with zero into the output's
  buffer.
-/
import proofs.«166424_j7602092114484_1_alg».proof.Proof.KI.Region1
import Idealize.ShloMosaic.Lib.Pipeline.Value

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The whole-block rectangle starts at the origin. -/
theorem hz_block : (![0, 0] : Fin 2 → Nat) = fun _ => 0 := funext fun a => by fin_cases a <;> rfl

/-- Case A (k = 0): the accumulator is zeroed, read back, and left at the update of the zero block by the two input
    blocks' product. -/
theorem sout1_A_eq (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : cond1_0 i) (hc1 : ¬cond1_1 i) (x0 : Vec F S2048x1024 .f32) (x1 : Vec F S1024x256 .f32) :
    sout1_A c i arg2 harg2 arg3 harg3 arg4 harg4 arg5 harg5 hc0 hc1 x0 x1 = k1_pay2 x0 x1 (k1_pay1 (F := F)) := by
  unfold sout1_A
  rw [View.read_writes_eq_canon _ _ _ (scover1_A c i arg2 harg2 arg3 harg3 arg4 harg4 arg5 harg5 hc0 hc1 x0 x1)]
  unfold kernelRun1_A
  dsimp only
  sl_unfold_words
  rw [View.canon_cons_unit_zero (S := S2048x256) hz_block, View.readCov_unit_zero (S := S2048x256) _ hz_block]
  simp only [View.readAt_eq_ld, harg2.read_unread, harg3.read_unread, View.ld_unit_zero (S := S2048x1024) hz_block,
    View.ld_unit_zero (S := S1024x256) hz_block]

/-- Case B (0 < k < 15): the accumulator is left at its update by the two input blocks' product. -/
theorem sout1_B_eq (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : ¬cond1_1 i) (x0 : Vec F S2048x1024 .f32) (x1 : Vec F S1024x256 .f32) (xs : Vec F S2048x256 .f32) :
    sout1_B c i arg2 harg2 arg3 harg3 arg4 harg4 arg5 harg5 hc0 hc1 x0 x1 xs = k1_pay2 x0 x1 xs := by
  unfold sout1_B
  rw [View.read_writes_eq_canon _ _ _ (scover1_B c i arg2 harg2 arg3 harg3 arg4 harg4 arg5 harg5 hc0 hc1 x0 x1 xs)]
  unfold kernelRun1_B
  dsimp only
  sl_unfold_words
  rw [View.canon_unit_zero (S := S2048x256) hz_block]
  simp only [View.readAt_eq_ld, harg2.read_unread, harg3.read_unread, harg5.read_unread,
    View.ld_unit_zero (S := S2048x1024) hz_block, View.ld_unit_zero (S := S1024x256) hz_block,
    View.ld_unit_zero (S := S2048x256) hz_block]

/-- Case C (k = 15): the accumulator is left at its update by the two input blocks' product, as in case B. -/
theorem sout1_C_eq (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i) (x0 : Vec F S2048x1024 .f32) (x1 : Vec F S1024x256 .f32) (xs : Vec F S2048x256 .f32) :
    sout1_C c i arg2 harg2 arg3 harg3 arg4 harg4 arg5 harg5 hc0 hc1 x0 x1 xs = k1_pay2 x0 x1 xs := by
  unfold sout1_C
  rw [View.read_writes_eq_canon _ _ _ (scover1_C c i arg2 harg2 arg3 harg3 arg4 harg4 arg5 harg5 hc0 hc1 x0 x1 xs)]
  unfold kernelRun1_C
  dsimp only
  sl_unfold_words
  rw [View.canon_unit_zero (S := S2048x256) hz_block]
  simp only [View.readAt_eq_ld, harg2.read_unread, harg3.read_unread, harg5.read_unread,
    View.ld_unit_zero (S := S2048x1024) hz_block, View.ld_unit_zero (S := S1024x256) hz_block,
    View.ld_unit_zero (S := S2048x256) hz_block]

/-- Case C (k = 15): the output's buffer is left at the maximum with zero of the updated accumulator read back. -/
theorem out1_C_2_eq (c : Dev nD) (i : grid1.Coords) (arg2 : Memref sig .tc .vmem S2048x1024 .f32) (harg2 : arg2.IsWhole) (arg3 : Memref sig .tc .vmem S1024x256 .f32) (harg3 : arg3.IsWhole) (arg4 : Memref sig .tc .vmem S2048x256 .f32) (harg4 : arg4.IsWhole) (arg5 : Memref sig .tc .vmem S2048x256 .f32) (harg5 : arg5.IsWhole) (hc0 : ¬cond1_0 i) (hc1 : cond1_1 i) (x0 : Vec F S2048x1024 .f32) (x1 : Vec F S1024x256 .f32) (xs : Vec F S2048x256 .f32) :
    out1_C_2 c i arg2 harg2 arg3 harg3 arg4 harg4 arg5 harg5 hc0 hc1 x0 x1 xs = k1_pay3 (k1_pay2 x0 x1 xs) := by
  unfold out1_C_2
  rw [View.read_writes_eq_canon _ _ _ (cover1_C_2 c i arg2 harg2 arg3 harg3 arg4 harg4 arg5 harg5 hc0 hc1 x0 x1 xs)]
  unfold kernelRun1_C
  dsimp only
  sl_unfold_words
  rw [View.canon_unit_zero (S := S2048x256) hz_block, View.readCov_unit_zero (S := S2048x256) _ hz_block]
  simp only [View.readAt_eq_ld, harg2.read_unread, harg3.read_unread, harg5.read_unread,
    View.ld_unit_zero (S := S2048x1024) hz_block, View.ld_unit_zero (S := S1024x256) hz_block,
    View.ld_unit_zero (S := S2048x256) hz_block]

end Cert.KernelIdeal.Frame

end
-- ==== Proof.Pay1.lean ====
/-
  The second launch's three payloads, read at an entry, at the ideal values.

  The first payload is the zero word broadcast to the block's shape: every entry is the extended real 0.
  The second payload adds to the accumulator block s the product of the block a [2048 × 1024] of the left matrix with
  the block b [1024 × 256] of the right one, accumulated from zero: at entry (p, q) it is
  s (p, q) + ∑ k < 1024, a (p, k) · b (k, q); the changes of float format are the identity at the ideal values and
  the shape casts are casts to the same shape.
  The third payload is the entrywise maximum of the accumulator block with the broadcast zero word.
-/
import proofs.«166424_j7602092114484_1_alg».proof.Proof.Gen.KernelIdeal.Skeleton
import proofs.«166424_j7602092114484_1_alg».proof.Proof.LibDotRowsCols
import Idealize.ShloMosaic.PureOps.Ideal.Laws
import Idealize.ShloMosaic.Lib.ValueIdx
import Idealize.ShloMosaic.Lib.Pipeline.Value

noncomputable section

open scoped BigOperators

namespace Cert.KernelIdeal.Pay1

open Cert.KernelIdeal Cert.KernelIdeal.Gen Idealize.ShloMosaic Idealize.ShloMosaic.ValueIdx

/-- The block product's dimension numbers are those of a plain rows-by-columns product [2048, 1024] × [1024, 256]. -/
theorem rowsCols : Cert.Lib.DotRowsCols.RowsCols dot_S2048x1024_S1024x256_S2048x256_1_0_0_1_n_n :=
  ⟨rfl, rfl, rfl, rfl, rfl, rfl⟩

/-- The block stored at the first K-step is zero at every entry. -/
theorem pay1_apply (p : Fin 2048) (q : Fin 256) : k1_pay1 (F := Ideal) (ix2 p q) = 0 := by
  show shapeCast S2048x256 (broadcast S2048x256 (Scalar.ofBits (F := Ideal) .f32 0x00000000#32))
      shapeCasts_S2048x256_S2048x256 (ix2 p q) = 0
  rw [shapeCast_self, broadcast_apply]
  exact Ideal.ofBits_zero_f32

/-- The accumulation step at an entry: the accumulator's entry plus the entry of the blocks' product. -/
theorem pay2_apply (a : Vec Ideal S2048x1024 .f32) (b : Vec Ideal S1024x256 .f32) (s : Vec Ideal S2048x256 .f32)
    (p : Fin 2048) (q : Fin 256) :
    k1_pay2 (F := Ideal) a b s (ix2 p q) = s (ix2 p q) + ∑ k : Fin 1024, a (ix2 p k) * b (ix2 k q) := by
  show shapeCast S2048x256
      (addf (F := Ideal) s
        (matmul (F := Ideal) dot_S2048x1024_S1024x256_S2048x256_1_0_0_1_n_n none
          (truncf .bf16 a bitsLt_bf16_f32)
          (truncf .bf16 (shapeCast S1024x256 b shapeCasts_S1024x256_S1024x256) bitsLt_bf16_f32)
          (constant S2048x256 .f32 0x00000000#32)))
      shapeCasts_S2048x256_S2048x256 (ix2 p q) = _
  rw [shapeCast_self, shapeCast_self, addf_apply, rowsCols.matmul_zero_apply]
  -- the format changes are the identity, and the entry's coordinates are p and q
  exact congrArg (s (ix2 p q) + ·) (Finset.sum_congr rfl fun k _ => rfl)

/-- The last K-step's result at an entry: the accumulator's entry, or zero if that is larger. -/
theorem pay3_apply (s : Vec Ideal S2048x256 .f32) (p : Fin 2048) (q : Fin 256) :
    k1_pay3 (F := Ideal) s (ix2 p q) = max (s (ix2 p q)) 0 := by
  show max (s (ix2 p q)) (Ideal.ofBits .f32 0x00000000#32) = _
  rw [Ideal.ofBits_zero_f32]

end Cert.KernelIdeal.Pay1

end
-- ==== Proof.Value1.lean ====
/-
  The array the second launch leaves in its output, at the ideal values: entry (r, v) is
  max (∑ q < 16384, A (r, q) · P (q, v)) 0, where A is the adjacency matrix and P the array of X · W as the launch
  finds them.

  At grid point t = 16 i + k the body works on block (i, k) of A (2048 × 1024) and block k of P (1024 × 256). Its
  accumulator, reset at k = 0, holds after point t, at entry (p, v), the sum over the K-blocks j ≤ k of
  ∑ r < 1024, A (2048 i + p, 1024 j + r) · P (1024 j + r, v): by induction on the point (a reset point holds its own
  block's term, 0 + the term; any other point adds its term to what the point before left). At k = 15 the sixteen
  blocks' terms are the whole sum over the 16384 columns of A, taken 16 blocks of 1024 at a time, and the output's
  buffer holds max (that, 0), which the pipeline writes back as block i of the result. Row r of the result is
  written back by the point 16 (r / 2048) + 15.
-/
import proofs.«166424_j7602092114484_1_alg».proof.Proof.KI.Region1
import proofs.«166424_j7602092114484_1_alg».proof.Proof.Pieces1
import proofs.«166424_j7602092114484_1_alg».proof.Proof.Pay1
import proofs.«166424_j7602092114484_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Value1

open Cert.KernelIdeal Cert.KernelIdeal.Gen Cert.KernelIdeal.Frame
open Idealize.ShloMosaic Idealize.ShloMosaic.TcCoe Idealize.ShloMosaic.ValueIdx Idealize.SL.Sem
open Idealize.ShloMosaic.Pipeline (Dat)

/-- A natural number as a row or column of a 16384-long axis (itself when below 16384). -/
def ax (a : ℕ) : Fin 16384 := ⟨a % 16384, Nat.mod_lt _ (by decide)⟩

theorem ax_val (a : ℕ) (h : a < 16384) : (ax a).val = a := Nat.mod_eq_of_lt h

/-- Where each window's block sits at grid point t = 16 i + k: A at block (i, k), P at block (k, 0), the result at
    block (i, 0). -/
theorem block_indices : ∀ t : Fin cfg1.N, win1_0.index t (0 : Fin 2) = t.val / 16 ∧ win1_0.index t (1 : Fin 2) = t.val % 16
    ∧ win1_1.index t (0 : Fin 2) = t.val % 16 ∧ win1_1.index t (1 : Fin 2) = 0
    ∧ win1_2.index t (0 : Fin 2) = t.val / 16 ∧ win1_2.index t (1 : Fin 2) = 0 :=
  (by decide +kernel : ∀ t : Fin grid1.N, _)

theorem point_lt (t : Fin cfg1.N) : t.val < 128 := lt_of_lt_of_eq t.isLt (show cfg1.N = 128 from N_1)

variable (V : (c : Dev nD) → (b : Ref sig .tc) → Buf (Elt Ideal) ((c : Thread nD τ).loc b))

/-- The adjacency matrix as the launch finds it. -/
abbrev aArr (c : Dev nD) : Spec.SA.Idx → EReal := V c main_arg1
/-- The array of X · W as the launch finds it. -/
abbrev pArr (c : Dev nD) : Spec.SX.Idx → EReal := V c main_v0
/-- The point's block of A. -/
abbrev aBlk (c : Dev nD) (t : Fin cfg1.N) : Vec Ideal S2048x1024 .f32 := iblk1 V c 0 t
/-- The point's block of P. -/
abbrev pBlk (c : Dev nD) (t : Fin cfg1.N) : Vec Ideal S1024x256 .f32 := iblk1 V c 1 t

/-- The block of A at point t, entry (p, r), is A at row 2048 (t / 16) + p, column 1024 (t % 16) + r. -/
theorem aBlk_apply (c : Dev nD) (t : Fin cfg1.N) (p : Fin 2048) (r : Fin 1024) :
    aBlk V c t (ix2 p r) = aArr V c (ix2 (ax (2048 * (t.val / 16) + p.val)) (ax (1024 * (t.val % 16) + r.val))) := by
  obtain ⟨e0, e1, -⟩ := block_indices t
  have hN := point_lt t
  have hp := p.isLt
  have hr := r.isLt
  show iblk1 V c 0 t (ix2 p r) = _
  unfold iblk1
  rw [View.read_apply]
  show V c main_arg1 _ = V c main_arg1 _
  congr 1
  funext a
  apply Fin.ext
  match a with
  | ⟨0, _⟩ =>
    show win1_0.index t (0 : Fin 2) * 2048 + 1 * p.val = (ax (2048 * (t.val / 16) + p.val)).val
    rw [e0, ax_val _ (by omega)]; omega
  | ⟨1, _⟩ =>
    show win1_0.index t (1 : Fin 2) * 1024 + 1 * r.val = (ax (1024 * (t.val % 16) + r.val)).val
    rw [e1, ax_val _ (by omega)]; omega

/-- The block of P at point t, entry (r, v), is P at row 1024 (t % 16) + r, column v. -/
theorem pBlk_apply (c : Dev nD) (t : Fin cfg1.N) (r : Fin 1024) (v : Fin 256) :
    pBlk V c t (ix2 r v) = pArr V c (ix2 (ax (1024 * (t.val % 16) + r.val)) v) := by
  obtain ⟨-, -, e0, e1, -⟩ := block_indices t
  have hN := point_lt t
  have hr := r.isLt
  show iblk1 V c 1 t (ix2 r v) = _
  unfold iblk1
  rw [View.read_apply]
  show V c main_v0 _ = V c main_v0 _
  congr 1
  funext a
  apply Fin.ext
  match a with
  | ⟨0, _⟩ =>
    show win1_1.index t (0 : Fin 2) * 1024 + 1 * r.val = (ax (1024 * (t.val % 16) + r.val)).val
    rw [e0, ax_val _ (by omega)]; omega
  | ⟨1, _⟩ =>
    show win1_1.index t (1 : Fin 2) * 256 + 1 * v.val = v.val
    rw [e1]; omega

/-- K-block j's term of entry (p, v) of row block i: ∑ r < 1024, A (2048 i + p, 1024 j + r) · P (1024 j + r, v). -/
def blockTerm (c : Dev nD) (p : Fin 2048) (v : Fin 256) (i j : ℕ) : EReal :=
  ∑ r : Fin 1024, aArr V c (ix2 (ax (2048 * i + p.val)) (ax (1024 * j + r.val))) * pArr V c (ix2 (ax (1024 * j + r.val)) v)

/-- The product of the point's two blocks at entry (p, v) is the point's K-block's term. -/
theorem term_eq (c : Dev nD) (t : Fin cfg1.N) (p : Fin 2048) (v : Fin 256) :
    ∑ r : Fin 1024, aBlk V c t (ix2 p r) * pBlk V c t (ix2 r v) = blockTerm V c p v (t.val / 16) (t.val % 16) := by
  unfold blockTerm
  exact Finset.sum_congr rfl fun r _ => congrArg₂ (· * ·) (aBlk_apply V c t p r) (pBlk_apply V c t r v)

/-- The accumulator after point n, at entry (p, v). -/
abbrev accAt (c : Dev nD) (n : ℕ) (hn : n < cfg1.N) (p : Fin 2048) (v : Fin 256) : EReal :=
  ((outsAt1 (F := Ideal) V c n hn).2 : Vec Ideal S2048x256 .f32) (ix2 p v)

/-- At a point with k = 0 the accumulator holds the point's own term (zero was stored first). -/
theorem acc_first (c : Dev nD) (t : Fin cfg1.N) (h0 : t.val % 16 = 0) (p : Fin 2048) (v : Fin 256) :
    accAt V c t.val t.isLt p v = blockTerm V c p v (t.val / 16) (t.val % 16) := by
  have h1 : ¬t.val % 16 = 15 := by omega
  unfold accAt
  rw [outsAt1_A V c t h0 h1]
  dsimp only
  refine (congrFun (sout1_A_eq (F := Ideal) c (grid1.coords t) (ms1_0 t) (hs1_0 t) (ms1_1 t) (hs1_1 t) (ms1_2 t) (hs1_2 t) scM1 (Memref.isWhole_whole _) ((hcond1_0 t).mpr h0) (fun h => h1 ((hcond1_1 t).mp h)) (iblk1 V c 0 t) (iblk1 V c 1 t)) (ix2 p v)).trans ?_
  refine (Pay1.pay2_apply (aBlk V c t) (pBlk V c t) (k1_pay1 (F := Ideal)) p v).trans ?_
  rw [Pay1.pay1_apply, zero_add]
  exact term_eq V c t p v

/-- At any other point the accumulator adds the point's term to what the point before left. -/
theorem acc_step (c : Dev nD) (t : Fin cfg1.N) (h0 : ¬t.val % 16 = 0) (p : Fin 2048) (v : Fin 256) :
    accAt V c t.val t.isLt p v
      = accAt V c (t.val - 1) (Nat.lt_of_le_of_lt (Nat.sub_le _ _) t.isLt) p v + blockTerm V c p v (t.val / 16) (t.val % 16) := by
  unfold accAt
  by_cases h1 : t.val % 16 = 15
  · rw [outsAt1_C V c t h0 h1]
    dsimp only
    refine (congrFun (sout1_C_eq (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h1) (iblk1 V c 0 t) (iblk1 V c 1 t) ((outsAt1 V c (t.val - 1) (Nat.lt_of_le_of_lt (Nat.sub_le _ _) t.isLt)).2)) (ix2 p v)).trans ?_
    refine (Pay1.pay2_apply (aBlk V c t) (pBlk V c t) ((outsAt1 V c (t.val - 1) (Nat.lt_of_le_of_lt (Nat.sub_le _ _) t.isLt)).2) p v).trans ?_
    rw [term_eq V c t p v]
  · rw [outsAt1_B V c t h0 h1]
    dsimp only
    refine (congrFun (sout1_B_eq (F := Ideal) c (grid1.coords t) (ms1_0 t) (hs1_0 t) (ms1_1 t) (hs1_1 t) (ms1_2 t) (hs1_2 t) scM1 (Memref.isWhole_whole _) (fun h => h0 ((hcond1_0 t).mp h)) (fun h => h1 ((hcond1_1 t).mp h)) (iblk1 V c 0 t) (iblk1 V c 1 t) ((outsAt1 V c (t.val - 1) (Nat.lt_of_le_of_lt (Nat.sub_le _ _) t.isLt)).2)) (ix2 p v)).trans ?_
    refine (Pay1.pay2_apply (aBlk V c t) (pBlk V c t) ((outsAt1 V c (t.val - 1) (Nat.lt_of_le_of_lt (Nat.sub_le _ _) t.isLt)).2) p v).trans ?_
    rw [term_eq V c t p v]

/-- The accumulator after point n holds the terms of the K-blocks 0 … n % 16 of row block n / 16. -/
theorem acc_closed (c : Dev nD) (p : Fin 2048) (v : Fin 256) (n : ℕ) (hn : n < cfg1.N) :
    accAt V c n hn p v = ∑ j ∈ Finset.range (n % 16 + 1), blockTerm V c p v (n / 16) j := by
  induction n with
  | zero =>
    rw [acc_first V c ⟨0, hn⟩ (Nat.zero_mod _) p v]
    simp
  | succ n ih =>
    by_cases h0 : (n + 1) % 16 = 0
    · rw [acc_first V c ⟨n + 1, hn⟩ h0 p v]
      show blockTerm V c p v ((n + 1) / 16) ((n + 1) % 16) = _
      rw [h0]; simp
    · have e := acc_step V c ⟨n + 1, hn⟩ h0 p v
      have e' : accAt V c (n + 1) hn p v = accAt V c n (Nat.lt_of_succ_lt hn) p v + blockTerm V c p v ((n + 1) / 16) ((n + 1) % 16) := e
      rw [e', ih (Nat.lt_of_succ_lt hn)]
      have d1 : n / 16 = (n + 1) / 16 := by omega
      have d2 : n % 16 + 1 = (n + 1) % 16 := by omega
      rw [d1, d2, Finset.sum_range_succ]

/-- The sixteen K-blocks' terms of an entry are the whole sum over the 16384 columns of A. -/
theorem blocks_sum (c : Dev nD) (p : Fin 2048) (v : Fin 256) (i : ℕ) (j : Spec.SX.Idx)
    (hj0 : (j 0).val = 2048 * i + p.val) (hj1 : (j 1).val = v.val) (hi : i < 8) :
    ∑ k ∈ Finset.range 16, blockTerm V c p v i k = Spec.AP (aArr V c) (pArr V c) j := by
  unfold Spec.AP
  rw [Spec.sum_16x1024, Finset.sum_range]
  refine Finset.sum_congr rfl fun k _ => ?_
  unfold blockTerm
  refine Finset.sum_congr rfl fun r _ => ?_
  have hk := k.isLt
  have hr := r.isLt
  have hp := p.isLt
  have e1 : ax (2048 * i + p.val) = j 0 := Fin.ext ((ax_val _ (by omega)).trans hj0.symm)
  have e2 : ax (1024 * k.val + r.val) = (⟨1024 * k.val + r.val, by omega⟩ : Fin 16384) := Fin.ext (ax_val _ (by omega))
  have e3 : v = j 1 := Fin.ext hj1.symm
  rw [e1, e2, e3]

/-- At a point with k = 15 the output's buffer holds max (accumulator, 0). -/
theorem out_from_acc (c : Dev nD) (t : Fin cfg1.N) (h15 : t.val % 16 = 15) (p : Fin 2048) (v : Fin 256) :
    ((outsAt1 (F := Ideal) V c t.val t.isLt).1 : Vec Ideal S2048x256 .f32) (ix2 p v) = max (accAt V c t.val t.isLt p v) 0 := by
  have h0 : ¬t.val % 16 = 0 := by omega
  unfold accAt
  rw [outsAt1_C V c t h0 h15]
  dsimp only
  rw [congrFun (out1_C_2_eq (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h15) (iblk1 V c 0 t) (iblk1 V c 1 t) ((outsAt1 V c (t.val - 1) (Nat.lt_of_le_of_lt (Nat.sub_le _ _) t.isLt)).2)) (ix2 p v),
    congrFun (sout1_C_eq (F := Ideal) c (grid1.coords t) (ms1_0 t) (hs1_0 t) (ms1_1 t) (hs1_1 t) (ms1_2 t) (hs1_2 t) scM1 (Memref.isWhole_whole _) (fun h => h0 ((hcond1_0 t).mp h)) ((hcond1_1 t).mpr h15) (iblk1 V c 0 t) (iblk1 V c 1 t) ((outsAt1 V c (t.val - 1) (Nat.lt_of_le_of_lt (Nat.sub_le _ _) t.isLt)).2)) (ix2 p v)]
  exact Pay1.pay3_apply _ p v

/-- The result, entry by entry: max (A · P) 0. -/
def Yfun (c : Dev nD) : Spec.SX.Idx → EReal := fun j => max (Spec.AP (aArr V c) (pArr V c) j) 0

/-- What a point with k = 15 leaves in the output's buffer at entry (p, v) is the result at row 2048 (t / 16) + p. -/
theorem out_entry (c : Dev nD) (t : Fin cfg1.N) (h15 : t.val % 16 = 15) (p : Fin 2048) (v : Fin 256) (j : Spec.SX.Idx)
    (hj0 : (j 0).val = 2048 * (t.val / 16) + p.val) (hj1 : (j 1).val = v.val) :
    ((outsAt1 (F := Ideal) V c t.val t.isLt).1 : Vec Ideal S2048x256 .f32) (ix2 p v) = Yfun V c j := by
  have hN := point_lt t
  rw [out_from_acc V c t h15 p v, acc_closed V c p v t.val t.isLt, h15]
  unfold Yfun
  rw [blocks_sum V c p v (t.val / 16) j hj0 hj1 (by omega)]

/-- What a writing-back point writes back is its block of the result. -/
theorem flushed_eq (c : Dev nD) (t : Fin cfg1.N) (hf : (cfg1.win 2).flush t = true) :
    (dat1 (F := Ideal) V c).flushed 2 t = ((cfg1.win 2).blk t).view.read (Elt Ideal) (Yfun V c) := by
  have h15 : t.val % 16 = 15 := (flush1_2 t).mp hf
  obtain ⟨-, -, -, -, e0, e1⟩ := block_indices t
  show (cfg1.win 2).cut (grid1.coords t) ((dat1 V c).after 2 t) = _
  rw [after1_2]
  funext j
  show ((outsAt1 (F := Ideal) V c t.val t.isLt).1 : Vec Ideal S2048x256 .f32) ((win1 2).xinj (grid1.coords t) j)
      = Yfun V c (((cfg1.win 2).blk t).view.emb j)
  have r0 : ((((cfg1.win 2).blk t).view.emb j) 0).val = win1_2.index t (0 : Fin 2) * 2048 + 1 * (j 0).val := rfl
  have r1 : ((((cfg1.win 2).blk t).view.emb j) 1).val = win1_2.index t (1 : Fin 2) * 256 + 1 * (j 1).val := rfl
  have hx : (win1 2).xinj (grid1.coords t) j = ix2 (j 0) (j 1) := eq_ix2 _
  rw [hx]
  refine out_entry V c t h15 (j 0) (j 1) _ ?_ ?_
  · rw [r0, e0]; omega
  · rw [r1, e1]; omega

/-- An index of the result's array is in point t's block iff on each axis it lies in the block's range. -/
theorem mem_block (t : Fin cfg1.N) (i : S16384x256.Idx) :
    i ∈ ((cfg1.win 2).blk t).view.set ↔ ∀ a : Fin 2, win1_2.index t a * S2048x256.size a ≤ (i a).val
      ∧ (i a).val < win1_2.index t a * S2048x256.size a + S2048x256.size a := by
  show i ∈ ((View.whole main_v1).slice (win1_2.rect t)).set ↔ _
  rw [View.set_slice_whole, Rect.mem_set_unit]
  exact Iff.rfl

/-- Every entry of the result is written back by some point: row r by the point 16 (r / 2048) + 15. -/
theorem covered (i : S16384x256.Idx) :
    ∃ t : Fin cfg1.N, (cfg1.win 2).flush t = true ∧ i ∈ ((cfg1.win 2).blk t).view.set := by
  have hi0 : (i 0).val < 16384 := (i 0).isLt
  have hi1 : (i 1).val < 256 := (i 1).isLt
  have ht : 16 * ((i 0).val / 2048) + 15 < cfg1.N := by show _ < grid1.N; rw [N_1]; omega
  obtain ⟨-, -, -, -, e0, e1⟩ := block_indices ⟨16 * ((i 0).val / 2048) + 15, ht⟩
  refine ⟨⟨16 * ((i 0).val / 2048) + 15, ht⟩, (flush1_2 _).mpr (by show (16 * ((i 0).val / 2048) + 15) % 16 = 15; omega), ?_⟩
  rw [mem_block]
  intro a
  match a with
  | ⟨0, _⟩ =>
    show win1_2.index ⟨16 * ((i 0).val / 2048) + 15, ht⟩ (0 : Fin 2) * 2048 ≤ (i 0).val
      ∧ (i 0).val < win1_2.index ⟨16 * ((i 0).val / 2048) + 15, ht⟩ (0 : Fin 2) * 2048 + 2048
    rw [e0]; show (16 * ((i 0).val / 2048) + 15) / 16 * 2048 ≤ (i 0).val ∧ (i 0).val < (16 * ((i 0).val / 2048) + 15) / 16 * 2048 + 2048; omega
  | ⟨1, _⟩ =>
    show win1_2.index ⟨16 * ((i 0).val / 2048) + 15, ht⟩ (1 : Fin 2) * 256 ≤ (i 1).val
      ∧ (i 1).val < win1_2.index ⟨16 * ((i 0).val / 2048) + 15, ht⟩ (1 : Fin 2) * 256 + 256
    rw [e1]; omega

/-- The array the second launch leaves in its output is max (A · P) 0 of its two input arrays. -/
theorem arr1 (c : Dev nD) :
    (dat1 (F := Ideal) V c).arrAt 2 cfg1.N = Yfun V c :=
  (dat1 (F := Ideal) V c).arrAt_eq_of_cover 2 (Yfun V c) (fun t hf => flushed_eq V c t hf) covered

end Cert.KernelIdeal.Value1

end
-- ==== Proof.Result.lean ====
/-
  The result of the idealized kernel program is the specification's Y of the three argument arrays.

  The second launch leaves max (A · P) 0 in the result's array, where A and P are the adjacency matrix and the
  array of X · W as that launch finds them; the first launch did not touch A, and left X · W of the launch contents
  of X and W in P.
-/
import proofs.«166424_j7602092114484_1_alg».proof.Proof.KI.Run
import proofs.«166424_j7602092114484_1_alg».proof.Proof.Value0
import proofs.«166424_j7602092114484_1_alg».proof.Proof.Value1
import proofs.«166424_j7602092114484_1_alg».proof.Proof.Spec

noncomputable section

namespace Cert.KernelIdeal.Result

open Cert.KernelIdeal Cert.KernelIdeal.Gen Cert.KernelIdeal.Frame
open Idealize.ShloMosaic Idealize.ShloMosaic.TcCoe Idealize.SL.Sem

variable (m : (ℓ : Loc nD τ sig) → Buf (Elt Ideal) ℓ) (ρ : Dev nD → PrngReg)

/-- The adjacency matrix as the second launch finds it is the launch's. -/
theorem aArr_eq (c : Dev nD) : Value1.aArr (Vb m ρ) c = m ((c.tc : Thread nD τ).loc main_arg1) :=
  W1_main_arg1 m ρ c

/-- The array of X · W as the second launch finds it is X · W of the launch's X and W. -/
theorem pArr_eq (c : Dev nD) :
    Value1.pArr (Vb m ρ) c = Cert.Spec.XW (m ((c.tc : Thread nD τ).loc main_arg0)) (m ((c.tc : Thread nD τ).loc main_arg2)) :=
  (W1_main_v0 m ρ c).trans (Value0.arr0 (Va m ρ) c)

/-- The result's array at the end is Y of the launch's X, A and W. -/
theorem result_eq (c : Dev nD) :
    (dat1 (F := Ideal) (Vb m ρ) c).arrAt 2 cfg1.N
      = Cert.Spec.Y (m ((c.tc : Thread nD τ).loc main_arg0)) (m ((c.tc : Thread nD τ).loc main_arg1)) (m ((c.tc : Thread nD τ).loc main_arg2)) := by
  rw [Value1.arr1 (Vb m ρ) c]
  unfold Value1.Yfun Cert.Spec.Y
  rw [aArr_eq m ρ c, pArr_eq m ρ c]

end Cert.KernelIdeal.Result

end
-- ==== Proof.RefIsY.lean ====
/-
  The reference's result is the specification's Y of its argument arrays.

  The reference is  max (A · (X · W)) 0  taken entry by entry: the two host products are, at the ideal values,
  the entries' plain sums over the shared axis, and the zero word broadcast to the result's shape is the extended
  real 0 at every entry.
-/
import proofs.«166424_j7602092114484_1_alg».proof.Proof.Gen.ReferenceIdeal.Run
import proofs.«166424_j7602092114484_1_alg».proof.Proof.Gen.ReferenceIdeal.Read
import proofs.«166424_j7602092114484_1_alg».proof.Proof.Spec
import proofs.«166424_j7602092114484_1_alg».proof.Proof.LibDotRowsCols

noncomputable section

open scoped BigOperators

namespace Cert.RefIsY

open Cert.ReferenceIdeal Cert.ReferenceIdeal.Gen Cert.ReferenceIdeal.Read Idealize.ShloMosaic Idealize.ShloMosaic.ValueIdx

/-- The first product's left operand index at result entry i and position k is (row of i, k). -/
theorem lidx_v0 (i : S16384x256.Idx) (k : Fin 256) : lidx_main_v0 i k = ix2 (i 0) k :=
  funext fun a => Fin.ext (by match a with | ⟨0, _⟩ => rfl | ⟨1, _⟩ => rfl)

/-- The first product's right operand index at result entry i and position k is (k, column of i). -/
theorem ridx_v0 (i : S16384x256.Idx) (k : Fin 256) : ridx_main_v0 i k = ix2 k (i 1) :=
  funext fun a => Fin.ext (by match a with | ⟨0, _⟩ => rfl | ⟨1, _⟩ => rfl)

/-- The second product's left operand index at result entry i and position k is (row of i, k). -/
theorem lidx_v1 (i : S16384x256.Idx) (k : Fin 16384) : lidx_main_v1 i k = ix2 (i 0) k :=
  funext fun a => Fin.ext (by match a with | ⟨0, _⟩ => rfl | ⟨1, _⟩ => rfl)

/-- The second product's right operand index at result entry i and position k is (k, column of i). -/
theorem ridx_v1 (i : S16384x256.Idx) (k : Fin 16384) : ridx_main_v1 i k = ix2 k (i 1) :=
  funext fun a => Fin.ext (by match a with | ⟨0, _⟩ => rfl | ⟨1, _⟩ => rfl)

/-- X · W on the host is the specification's XW. -/
theorem v0_eq_XW (x0 : (⟨S16384x256, .f32⟩ : BufTy).Contents (Elt Ideal))
    (x2 : (⟨S256x256, .f32⟩ : BufTy).Contents (Elt Ideal)) :
    val_main_v0 (F := Ideal) x0 x2 = Cert.Spec.XW x0 x2 := by
  funext i
  rw [val_main_v0_apply]
  unfold Cert.Spec.XW
  refine Finset.sum_congr rfl fun k _ => ?_
  rw [lidx_v0, ridx_v0]
  rfl

/-- A · (X · W) on the host is the specification's AP of XW. -/
theorem v1_eq_AP (x0 : (⟨S16384x256, .f32⟩ : BufTy).Contents (Elt Ideal))
    (x1 : (⟨S16384x16384, .f32⟩ : BufTy).Contents (Elt Ideal))
    (x2 : (⟨S256x256, .f32⟩ : BufTy).Contents (Elt Ideal)) :
    val_main_v1 (F := Ideal) x0 x1 x2 = Cert.Spec.AP x1 (Cert.Spec.XW x0 x2) := by
  funext i
  rw [val_main_v1_apply, v0_eq_XW]
  unfold Cert.Spec.AP
  refine Finset.sum_congr rfl fun k _ => ?_
  rw [lidx_v1, ridx_v1]
  rfl

/-- The reference's result is Y. -/
theorem ref_eq_Y (x0 : (⟨Cert.ReferenceIdeal.S16384x256, .f32⟩ : BufTy).Contents (Elt Ideal))
    (x1 : (⟨Cert.ReferenceIdeal.S16384x16384, .f32⟩ : BufTy).Contents (Elt Ideal))
    (x2 : (⟨Cert.ReferenceIdeal.S256x256, .f32⟩ : BufTy).Contents (Elt Ideal)) :
    maximumf (F := Ideal) (Host.dotGeneral (F := Ideal) (φ₁ := .f32) (φ₂ := .f32) Cert.ReferenceIdeal.dot_S16384x16384_S16384x256_S16384x256_1_0_0_1_n_n none x1 (Host.dotGeneral (F := Ideal) (φ₁ := .f32) (φ₂ := .f32) Cert.ReferenceIdeal.dot_S16384x256_S256x256_S16384x256_1_0_0_1_n_n none x0 x2)) (broadcastInDim Cert.ReferenceIdeal.S16384x256 ![] Cert.ReferenceIdeal.Gen.bcast_S_S16384x256 (constant (F := Ideal) Cert.ReferenceIdeal.S_ .f32 0x00000000#32)) = Cert.Spec.Y x0 x1 x2 := by
  rw [val_main_v2_eq]
  funext i
  rw [val_main_v2_apply, v1_eq_AP, val_main_call0_v0_apply, val_main_call0_cst_apply, Ideal.maximumf_def,
    Ideal.ofBits_def, Ideal.ofBits_zero_f32]
  rfl

end Cert.RefIsY

end
-- ==== Proof.lean ====
/-
  The certificate: the Pallas program computing relu (A · (X · W)) in two launches — X · W a block of 2048 rows at
  a time, then A · (X · W) accumulated over 16 blocks of 1024 columns of A in a scratch buffer with the maximum with 0
  taken at the last block — against the reference relu (A @ (X @ W)).

  The three frames: both kernel programs (the word-level one and the idealized one are the same text) run to the
  end from any memory, fault nowhere and leave the three arguments as launched (the run of the two launches, stated
  once for any value type); the reference is five host operations. The idealization changed nothing, so there is
  nothing to preserve. At the ideal values both programs end with the specification's Y of the arguments: the
  kernel's sixteen partial sums of 1024 terms are the one sum of 16384 terms (sums of extended reals may be regrouped:
  no finiteness is needed), and a block of rows of a product is the product of the block of rows.
-/
import proofs.«166424_j7602092114484_1_alg».proof.Defs
import proofs.«166424_j7602092114484_1_alg».proof.Proof.Gen.Kernel
import proofs.«166424_j7602092114484_1_alg».proof.Proof.Gen.KernelIdeal
import proofs.«166424_j7602092114484_1_alg».proof.Proof.Gen.ReferenceIdeal
import proofs.«166424_j7602092114484_1_alg».proof.Proof.Gen.Pre_finite_inputs
import proofs.«166424_j7602092114484_1_alg».proof.Proof.Gen.ReferenceIdeal.Run
import proofs.«166424_j7602092114484_1_alg».proof.Proof.K.Run
import proofs.«166424_j7602092114484_1_alg».proof.Proof.KI.Run
import proofs.«166424_j7602092114484_1_alg».proof.Proof.Result
import proofs.«166424_j7602092114484_1_alg».proof.Proof.RefIsY
import Idealize.ShloMosaic.Adequacy
import Idealize.ShloMosaic.Init

noncomputable section

namespace Cert.Proof

open Idealize.ShloMosaic Idealize.SL.Sem

/-- The word-level kernel program runs and leaves its arguments unchanged. -/
theorem frame_kernel [Cert.Kernel.Facts] [Cert.Pre_finite_inputs.Facts] : Cert.frame_Kernel :=
  fun m ρ _ => Cert.Kernel.Frame.frame (F := Bits) m ρ

/-- The idealized kernel program runs and leaves its arguments unchanged. -/
theorem frame_kernelIdeal [Cert.KernelIdeal.Facts] [Cert.Pre_finite_inputs.Facts] : Cert.frame_KernelIdeal :=
  fun m ρ _ => Cert.KernelIdeal.Frame.frame (F := Ideal) m ρ

/-- The reference runs and leaves its arguments unchanged: its run with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with Y of the arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Spec.Y (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun r h c => ⟨(h c).1.trans (Cert.KernelIdeal.Result.result_eq m ρ c), (h c).2⟩)
      (Cert.KernelIdeal.Frame.run_value (F := Ideal) m ρ)
  · refine (θ_run Cert.ReferenceIdeal.defs _ _).mono (fun _ h c => ⟨(h c).1.trans ?_, (h c).2⟩)
      (Cert.ReferenceIdeal.Value.run (F := Ideal) m' ρ')
    rw [(hagree c).1, (hagree c).2.1, (hagree c).2.2]
    exact Cert.RefIsY.ref_eq_Y _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
